-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x768 : Shape := ⟨3, ![4, 4096, 768]⟩
abbrev S768x768 : Shape := ⟨2, ![768, 768]⟩
abbrev S768 : Shape := ⟨1, ![768]⟩
abbrev S_ : Shape := ⟨0, ![]⟩

class Facts : Prop where
  bcast_S_S4x4096x768 : S_.BroadcastsInDim S4x4096x768 (![] : Fin 0 → Fin S4x4096x768.rank)
  reducesTo_S4x4096x768_S_d0_1_2 : S4x4096x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_arg5 : FVec F S768x768 .f32) (main_arg6 : FVec F S768 .f32) (main_v13 : IVec S_ 1) (main_v16 : IVec S768x768 1) : IVec S_ 1 :=
  let main_c_5 : IVec S_ 1 := constantI S_ 1 1#1
  let main_v17 : IVec S_ 1 := (fun x v => Host.reduce IntOp.andi x v reducesTo_S768x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x768 .f32 := Host.absf main_arg5
  let main_cst_8 : FVec F S_ .f32 := constant S_ .f32 0x7F800000#32
  let main_v25 : FVec F S768x768 .f32 := broadcastInDim S768x768 ![] bcast_S_S768x768 main_cst_8
  let main_v26 : IVec S768x768 1 := cmpf .olt main_v24 main_v25
  let main_c_9 : IVec S_ 1 := constantI S_ 1 1#1
  let main_v27 : IVec S_ 1 := (fun x v => Host.reduce IntOp.andi x v reducesTo_S768x768_S_d0_1 h_S_) main_v26 main_c_9
  let main_v28 : IVec S_ 1 := andi main_v23 main_v27
  let main_v29 : FVec F S768 .f32 := Host.absf main_arg6
  let main_cst_10 : FVec F S_ .f32 := constant S_ .f32 0x7F800000#32
  let main_v30 : FVec F S768 .f32 := broadcastInDim S768 ![] bcast_S_S768 main_cst_10
  let main_v31 : IVec S768 1 := cmpf .olt main_v29 main_v30
  let main_c_11 : IVec S_ 1 := constantI S_ 1 1#1
  let main_v32 : IVec S_ 1 := (fun x v => Host.reduce IntOp.andi x v reducesTo_S768_S_d0 h_S_) main_v31 main_c_11
  let main_v33 : IVec S_ 1 := andi main_v28 main_v32
  main_v33

def fn {F : FTy → Type} [FloatOps F] (main_arg0 : FVec F S4x4096x768 .f32) (main_arg1 : FVec F S768x768 .f32) (main_arg2 : FVec F S768 .f32) (main_arg3 : FVec F S768x768 .f32) (main_arg4 : FVec F S768 .f32) (main_arg5 : FVec F S768x768 .f32) (main_arg6 : FVec F S768 .f32) : IVec S_ 1 :=
  let main_v0 : FVec F S4x4096x768 .f32 := Host.absf main_arg0
  let main_cst : FVec F S_ .f32 := constant S_ .f32 0x7F800000#32
  let main_v1 : FVec F S4x4096x768 .f32 := broadcastInDim S4x4096x768 ![] bcast_S_S4x4096x768 main_cst
  let main_v2 : IVec S4x4096x768 1 := cmpf .olt main_v0 main_v1
  let main_c : IVec S_ 1 := constantI S_ 1 1#1
  let main_v3 : IVec S_ 1 := (fun x v => Host.reduce IntOp.andi x v reducesTo_S4x4096x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768x768 .f32 := Host.absf main_arg3
  let main_cst_4 : FVec F S_ .f32 := constant S_ .f32 0x7F800000#32
  let main_v15 : FVec F S768x768 .f32 := broadcastInDim S768x768 ![] bcast_S_S768x768 main_cst_4
  let main_v16 : IVec S768x768 1 := cmpf .olt main_v14 main_v15
  fn_part1 (F := F) main_arg4 main_arg5 main_arg6 main_v13 main_v16
-- ==== Kernel.lean ====
abbrev S4x4096x768 : Shape := ⟨3, ![4, 4096, 768]⟩
abbrev S768x768 : Shape := ⟨2, ![768, 768]⟩
abbrev S768 : Shape := ⟨1, ![768]⟩
abbrev S4x768x768 : Shape := ⟨3, ![4, 768, 768]⟩
abbrev S1x1024x768 : Shape := ⟨3, ![1, 1024, 768]⟩
abbrev S1x768x768 : Shape := ⟨3, ![1, 768, 768]⟩
abbrev S1024x768 : Shape := ⟨2, ![1024, 768]⟩
abbrev S1x768 : Shape := ⟨2, ![1, 768]⟩

abbrev nBuf : Space → Nat
  | .hbm => 12
  | .vmem => 16
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S768x768, .f32⟩
  | .hbm, ⟨8, _⟩ => ⟨S768x768, .f32⟩
  | .hbm, ⟨9, _⟩ => ⟨S768x768, .f32⟩
  | .hbm, ⟨10, _⟩ => ⟨S4x768x768, .f32⟩
  | .hbm, ⟨11, _⟩ => ⟨S4x4096x768, .f32⟩
  | .local _ .vmem, ⟨0, _⟩ => ⟨S1x1024x768, .f32⟩
  | .local _ .vmem, ⟨1, _⟩ => ⟨S1x1024x768, .f32⟩
  | .local _ .vmem, ⟨2, _⟩ => ⟨S768x768, .f32⟩
  | .local _ .vmem, ⟨3, _⟩ => ⟨S768, .f32⟩
  | .local _ .vmem, ⟨4, _⟩ => ⟨S768x768, .f32⟩
  | .local _ .vmem, ⟨5, _⟩ => ⟨S768, .f32⟩
  | .local _ .vmem, ⟨6, _⟩ => ⟨S1x768x768, .f32⟩
  | .local _ .vmem, ⟨7, _⟩ => ⟨S1x768x768, .f32⟩
  | .local _ .vmem, ⟨8, _⟩ => ⟨S1x1024x768, .f32⟩
  | .local _ .vmem, ⟨9, _⟩ => ⟨S1x1024x768, .f32⟩
  | .local _ .vmem, ⟨10, _⟩ => ⟨S768x768, .f32⟩
  | .local _ .vmem, ⟨11, _⟩ => ⟨S768, .f32⟩
  | .local _ .vmem, ⟨12, _⟩ => ⟨S1x768x768, .f32⟩
  | .local _ .vmem, ⟨13, _⟩ => ⟨S1x768x768, .f32⟩
  | .local _ .vmem, ⟨14, _⟩ => ⟨S1x1024x768, .f32⟩
  | .local _ .vmem, ⟨15, _⟩ => ⟨S1x1024x768, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x768x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S768x768 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S768 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x768x768 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x1024x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  transposes_S768x768_S768x768_1_0 : S768x768.Transposes [1, 0] S768x768
  inb_S1x768x768_S1x768x768_0_0_0 : ∀ a, (![0, 0, 0] : Fin 3 → Nat) a + S1x768x768.size a ≤ S1x768x768.size a
  h_S1x768x768 : 0 < S1x768x768.numel
  shapeCasts_S1x768x768_S768x768 : S1x768x768.ShapeCasts S768x768
  shapeCasts_S768x768_S1x768x768 : S768x768.ShapeCasts S1x768x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S768_S768_0 : ∀ a, (![0] : Fin 1 → Nat) a + S768.size a ≤ S768.size a
  h_S768 : 0 < S768.numel
  shapeCasts_S768_S1x768 : S768.ShapeCasts S1x768
  broadcasts_S1x768_S1024x768 : S1x768.Broadcasts S1024x768
  shapeCasts_S1024x768_S1x1024x768 : S1024x768.ShapeCasts S1x1024x768
  dot_S1024x768_S768x768_S1024x768_1_0_0_1_n_n_wf : DotDims.WF S1024x768 S768x768 S1024x768 [1] [0] [0] [1] [] []
  dot_S1024x768_S1024x768_S768x768_0_0_1_1_n_n_wf : DotDims.WF S1024x768 S1024x768 S768x768 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x4096x768.size a
  hwx0_0 : ∀ i : grid0.Coords, EltTy.bits .f32 = 32 ∨ (Rect.block (s := S4x4096x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .f32 = 32 ∨ (Rect.block (s := S768x768) S768x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S768.size a ≤ S768.size a
  hwx0_2 : ∀ i : grid0.Coords, EltTy.bits .f32 = 32 ∨ (Rect.block (s := S768) S768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x768.size a ≤ S768x768.size a
  hwx0_3 : ∀ i : grid0.Coords, EltTy.bits .f32 = 32 ∨ (Rect.block (s := S768x768) S768x768.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768.size a ≤ S768.size a
  hwx0_4 : ∀ i : grid0.Coords, EltTy.bits .f32 = 32 ∨ (Rect.block (s := S768) S768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768x768.size a ≤ S4x768x768.size a
  hwx0_5 : ∀ i : grid0.Coords, EltTy.bits .f32 = 32 ∨ (Rect.block (s := S4x768x768) S1x768x768.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x768.size a ≤ S4x4096x768.size a
  hwx1_0 : ∀ i : grid1.Coords, EltTy.bits .f32 = 32 ∨ (Rect.block (s := S4x4096x768) S1x1024x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x768.size a ≤ S768x768.size a
  hwx1_1 : ∀ i : grid1.Coords, EltTy.bits .f32 = 32 ∨ (Rect.block (s := S768x768) S768x768.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S768.size a ≤ S768.size a
  hwx1_2 : ∀ i : grid1.Coords, EltTy.bits .f32 = 32 ∨ (Rect.block (s := S768) S768.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x768x768.size a ≤ S4x768x768.size a
  hwx1_3 : ∀ i : grid1.Coords, EltTy.bits .f32 = 32 ∨ (Rect.block (s := S4x768x768) S1x768x768.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1024x768.size a ≤ S4x4096x768.size a
  hwx1_4 : ∀ i : grid1.Coords, EltTy.bits .f32 = 32 ∨ (Rect.block (s := S4x4096x768) S1x1024x768.size (cc1_transform_4 i) (hinb1_4 i)).WholeWords (EltTy.packing .f32)

variable [Facts₀]

def dot_S1024x768_S768x768_S1024x768_1_0_0_1_n_n : DotDims S1024x768 S768x768 S1024x768 where
  lhsContracting := [1]
  rhsContracting := [0]
  lhsNonContracting := [0]
  rhsNonContracting := [1]
  lhsBatch := []
  rhsBatch := []
  wf := dot_S1024x768_S768x768_S1024x768_1_0_0_1_n_n_wf
def dot_S1024x768_S1024x768_S768x768_0_0_1_1_n_n : DotDims S1024x768 S1024x768 S768x768 where
  lhsContracting := [0]
  rhsContracting := [0]
  lhsNonContracting := [1]
  rhsNonContracting := [1]
  lhsBatch := []
  rhsBatch := []
  wf := dot_S1024x768_S1024x768_S768x768_0_0_1_1_n_n_wf

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S768x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x768x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg0) S1x1024x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S768x768.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S768.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x768x768.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x1024x768.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S4x4096x768 : Shape := ⟨3, ![4, 4096, 768]⟩
abbrev S768x768 : Shape := ⟨2, ![768, 768]⟩
abbrev S768 : Shape := ⟨1, ![768]⟩
abbrev S1x1x768 : Shape := ⟨3, ![1, 1, 768]⟩
abbrev S4x4096x4096 : Shape := ⟨3, ![4, 4096, 4096]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768x768, .f32⟩
  | .hbm, ⟨6, _⟩ => ⟨S768, .f32⟩
  | .hbm, ⟨7, _⟩ => ⟨S4x4096x768, .f32⟩
  | .hbm, ⟨8, _⟩ => ⟨S1x1x768, .f32⟩
  | .hbm, ⟨9, _⟩ => ⟨S4x4096x768, .f32⟩
  | .hbm, ⟨10, _⟩ => ⟨S4x4096x768, .f32⟩
  | .hbm, ⟨11, _⟩ => ⟨S4x4096x768, .f32⟩
  | .hbm, ⟨12, _⟩ => ⟨S1x1x768, .f32⟩
  | .hbm, ⟨13, _⟩ => ⟨S4x4096x768, .f32⟩
  | .hbm, ⟨14, _⟩ => ⟨S4x4096x768, .f32⟩
  | .hbm, ⟨15, _⟩ => ⟨S4x4096x768, .f32⟩
  | .hbm, ⟨16, _⟩ => ⟨S1x1x768, .f32⟩
  | .hbm, ⟨17, _⟩ => ⟨S4x4096x768, .f32⟩
  | .hbm, ⟨18, _⟩ => ⟨S4x4096x768, .f32⟩
  | .hbm, ⟨19, _⟩ => ⟨S4x4096x4096, .f32⟩
  | .hbm, ⟨20, _⟩ => ⟨S_, .f32⟩
  | .hbm, ⟨21, _⟩ => ⟨S4x4096x4096, .f32⟩
  | .hbm, ⟨22, _⟩ => ⟨S4x4096x4096, .f32⟩
  | .hbm, ⟨23, _⟩ => ⟨S4x4096x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]

class Facts₀ : Prop where
  bcast_S768_S1x1x768_2 : S768.BroadcastsInDim S1x1x768 (![2] : Fin 1 → Fin S1x1x768.rank)
  bcast_S1x1x768_S4x4096x768_0_1_2 : S1x1x768.BroadcastsInDim S4x4096x768 (![0, 1, 2] : Fin 3 → Fin S4x4096x768.rank)
  bcast_S_S4x4096x4096 : S_.BroadcastsInDim S4x4096x4096 (![] : Fin 0 → Fin S4x4096x4096.rank)
  dot_S4x4096x768_S768x768_S4x4096x768_2_1_01_0_n_n_wf : DotDims.WF S4x4096x768 S768x768 S4x4096x768 [2] [1] [0, 1] [0] [] []
  dot_S4x4096x768_S4x4096x768_S4x4096x4096_2_2_1_1_0_0_wf : DotDims.WF S4x4096x768 S4x4096x768 S4x4096x4096 [2] [2] [1] [1] [0] [0]
  dot_S4x4096x4096_S4x4096x768_S4x4096x768_2_1_1_2_0_0_wf : DotDims.WF S4x4096x4096 S4x4096x768 S4x4096x768 [2] [1] [1] [2] [0] [0]

variable [Facts₀]

def dot_S4x4096x768_S768x768_S4x4096x768_2_1_01_0_n_n : DotDims S4x4096x768 S768x768 S4x4096x768 where
  lhsContracting := [2]
  rhsContracting := [1]
  lhsNonContracting := [0, 1]
  rhsNonContracting := [0]
  lhsBatch := []
  rhsBatch := []
  wf := dot_S4x4096x768_S768x768_S4x4096x768_2_1_01_0_n_n_wf
def dot_S4x4096x768_S4x4096x768_S4x4096x4096_2_2_1_1_0_0 : DotDims S4x4096x768 S4x4096x768 S4x4096x4096 where
  lhsContracting := [2]
  rhsContracting := [2]
  lhsNonContracting := [1]
  rhsNonContracting := [1]
  lhsBatch := [0]
  rhsBatch := [0]
  wf := dot_S4x4096x768_S4x4096x768_S4x4096x4096_2_2_1_1_0_0_wf
def dot_S4x4096x4096_S4x4096x768_S4x4096x768_2_1_1_2_0_0 : DotDims S4x4096x4096 S4x4096x768 S4x4096x768 where
  lhsContracting := [2]
  rhsContracting := [1]
  lhsNonContracting := [1]
  rhsNonContracting := [2]
  lhsBatch := [0]
  rhsBatch := [0]
  wf := dot_S4x4096x4096_S4x4096x768_S4x4096x768_2_1_1_2_0_0_wf

class Facts : Prop extends Facts₀ where

variable [Facts]
-- ==== Proof.Spec.lean ====
/-
  The two programs' results as functions of the seven argument arrays, entry by entry, over the extended reals.

  With q, k, v the three linear layers of x (each `x · Wᵀ + bias`), the reference forms the scores
  `(q · kᵀ) · c` and multiplies them with v: entry (b, s, d) is `Σ_t ((Σ_e q[b,s,e] · k[b,t,e]) · c) · v[b,t,d]`.
  The kernel first accumulates, batch by batch, the 768 × 768 matrix `KV[b] = kᵀ · v` over four tiles of 1024
  rows each, in tile order, and then forms `(q · KV[b]) · c`: entry (b, s, d) is
  `(Σ_e q[b,s,e] · KV[b][e,d]) · c`. Here `c` is the single-precision word of 1/√768, the same word in both.
-/
import Idealize.ShloMosaic.PureOps.Ideal
import Idealize.ShloMosaic.Lib.ValueIdx

noncomputable section

namespace Cert.Attn

open Idealize.ShloMosaic Idealize.ShloMosaic.ValueIdx

/-- The activations' shape, a weight's, a bias's, and the shape of the per-batch matrices `kᵀ · v`. -/
abbrev SX : Shape := ⟨3, ![4, 4096, 768]⟩
abbrev SW : Shape := ⟨2, ![768, 768]⟩
abbrev SB : Shape := ⟨1, ![768]⟩
abbrev SKV : Shape := ⟨3, ![4, 768, 768]⟩

/-- The scale: the word both programs carry for 1/√768, read as an extended real. -/
def scale : EReal := Ideal.ofBits .f32 0x3D13CD3A#32

/-- A linear layer at (batch b, row s, feature e): `Σ_d x[b,s,d] · W[e,d] + bias[e]`. -/
def lin (x : FVec Ideal SX .f32) (W : FVec Ideal SW .f32) (β : FVec Ideal SB .f32) (b : Fin 4) (s : Fin 4096) (e : Fin 768) : EReal :=
  (∑ d : Fin 768, x (ix3 b s d) * W (ix2 e d)) + β (ix1 e)

/-- Row `t` of tile `j` (tiles of 1024 rows; the tile number is read modulo 4). -/
def trow (j : ℕ) (t : Fin 1024) : Fin 4096 :=
  ⟨(j % 4) * 1024 + t.val, by have := t.isLt; have := Nat.mod_lt j (show 0 < 4 by norm_num); omega⟩

/-- One tile's contribution to `kᵀ · v` at (e, d): the sum over the tile's rows of `k[t,e] · v[t,d]`. -/
def kvTile (x : FVec Ideal SX .f32) (Wk : FVec Ideal SW .f32) (bk : FVec Ideal SB .f32) (Wv : FVec Ideal SW .f32) (bv : FVec Ideal SB .f32)
    (b : Fin 4) (j : ℕ) (e d : Fin 768) : EReal :=
  ∑ t : Fin 1024, lin x Wk bk b (trow j t) e * lin x Wv bv b (trow j t) d

/-- The accumulator after tile `j`: tile 0's contribution, then each later tile's added in order. -/
def kvAcc (x : FVec Ideal SX .f32) (Wk : FVec Ideal SW .f32) (bk : FVec Ideal SB .f32) (Wv : FVec Ideal SW .f32) (bv : FVec Ideal SB .f32)
    (b : Fin 4) : ℕ → Fin 768 → Fin 768 → EReal
  | 0 => fun e d => kvTile x Wk bk Wv bv b 0 e d
  | j + 1 => fun e d => kvAcc x Wk bk Wv bv b j e d + kvTile x Wk bk Wv bv b (j + 1) e d

/-- The array of the four matrices `kᵀ · v`, each after its last tile. -/
def kvArr (x : FVec Ideal SX .f32) (Wk : FVec Ideal SW .f32) (bk : FVec Ideal SB .f32) (Wv : FVec Ideal SW .f32) (bv : FVec Ideal SB .f32) :
    FVec Ideal SKV .f32 := fun i => kvAcc x Wk bk Wv bv (i 0) 3 (i 1) (i 2)

/-- The kernel's result: `(q · KV[b]) · c`. -/
def kernelOut (x : FVec Ideal SX .f32) (Wq : FVec Ideal SW .f32) (bq : FVec Ideal SB .f32) (Wk : FVec Ideal SW .f32) (bk : FVec Ideal SB .f32)
    (Wv : FVec Ideal SW .f32) (bv : FVec Ideal SB .f32) : FVec Ideal SX .f32 := fun i =>
  (∑ e : Fin 768, lin x Wq bq (i 0) (i 1) e * kvAcc x Wk bk Wv bv (i 0) 3 e (i 2)) * scale

/-- The reference's result: `((q · kᵀ) · c) · v`. -/
def refOut (x : FVec Ideal SX .f32) (Wq : FVec Ideal SW .f32) (bq : FVec Ideal SB .f32) (Wk : FVec Ideal SW .f32) (bk : FVec Ideal SB .f32)
    (Wv : FVec Ideal SW .f32) (bv : FVec Ideal SB .f32) : FVec Ideal SX .f32 := fun i =>
  ∑ t : Fin 4096, ((∑ e : Fin 768, lin x Wq bq (i 0) (i 1) e * lin x Wk bk (i 0) t e) * scale) * lin x Wv bv (i 0) t (i 2)

theorem kvArr_apply (x : FVec Ideal SX .f32) (Wk : FVec Ideal SW .f32) (bk : FVec Ideal SB .f32) (Wv : FVec Ideal SW .f32) (bv : FVec Ideal SB .f32)
    (b : Fin 4) (e d : Fin 768) : kvArr x Wk bk Wv bv (ix3 b e d) = kvAcc x Wk bk Wv bv b 3 e d := rfl

theorem kernelOut_apply (x : FVec Ideal SX .f32) (Wq : FVec Ideal SW .f32) (bq : FVec Ideal SB .f32) (Wk : FVec Ideal SW .f32) (bk : FVec Ideal SB .f32)
    (Wv : FVec Ideal SW .f32) (bv : FVec Ideal SB .f32) (b : Fin 4) (s : Fin 4096) (d : Fin 768) :
    kernelOut x Wq bq Wk bk Wv bv (ix3 b s d)
      = (∑ e : Fin 768, lin x Wq bq b s e * kvAcc x Wk bk Wv bv b 3 e d) * scale := rfl

theorem refOut_apply (x : FVec Ideal SX .f32) (Wq : FVec Ideal SW .f32) (bq : FVec Ideal SB .f32) (Wk : FVec Ideal SW .f32) (bk : FVec Ideal SB .f32)
    (Wv : FVec Ideal SW .f32) (bv : FVec Ideal SB .f32) (b : Fin 4) (s : Fin 4096) (d : Fin 768) :
    refOut x Wq bq Wk bk Wv bv (ix3 b s d)
      = ∑ t : Fin 4096, ((∑ e : Fin 768, lin x Wq bq b s e * lin x Wk bk b t e) * scale) * lin x Wv bv b t d := rfl

end Cert.Attn

end
-- ==== Proof.LibPlainDot.lean ====
/-
  A matrix product read at an entry.

  For the dimension numbers of the plain product of an M × K matrix with a K × N matrix (contract the left
  operand's second axis against the right operand's first, no batch axis) the sum over the product's contraction
  index is the familiar sum over `k : Fin K` of `l (a, k) · r (k, b)`. Stated for ANY record with those dimension
  numbers, so one lemma serves every such product of a program whatever the three extents; the forms for a
  `tpu.matmul` into a zero accumulator and for the host's `dot_general` at the ideal values follow.
-/
import Idealize.ShloMosaic.PureOps.Ideal.Laws
import Idealize.ShloMosaic.Lib.ValueIdx

noncomputable section

namespace Cert.LibPlainDot

open Idealize.ShloMosaic Idealize.ShloMosaic.ValueIdx

variable {M K N : Nat}

/-- The plain product's sum over its contraction index is the sum over `k : Fin K` of `l (a, k) * r (k, b)`. -/
theorem dot_sum (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (l : (⟨2, ![M, K]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 a k) * r (ix2 k b) := by
  obtain ⟨lc, rc, ln, rn, lb, rb, wf⟩ := d
  dsimp only at hlc hrc hln hrn hlb hrb
  subst hlc hrc hln hrn hlb hrb
  generalize hd : (⟨[1], [0], [0], [1], [], [], wf⟩ : DotDims ⟨2, ![M, K]⟩ ⟨2, ![K, N]⟩ ⟨2, ![M, N]⟩) = d
  have hlc : d.lhsContracting = [1] := by rw [← hd]
  have hrc : d.rhsContracting = [0] := by rw [← hd]
  have hr : d.contr.rank = 1 := by rw [← hd]; rfl
  have hs : d.contr.size ⟨0, by omega⟩ = K := by subst hd; rfl
  have l0 : ∀ q : d.contr.Idx, (d.lhsIdx (ix2 a b) q 0).val = a.val := by
    subst hd; intro q
    unfold DotDims.lhsIdx
    rw [dif_neg (show ¬ (0 : Fin 2) ∈ ([] : List (Fin 2)) from List.not_mem_nil),
      dif_pos (show (0 : Fin 2) ∈ ([0] : List (Fin 2)) from List.mem_singleton.mpr rfl)]
    rfl
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 a k := funext fun ax => Fin.ext (by
    match ax with
    | ⟨0, _⟩ => exact l0 _
    | ⟨1, _⟩ => exact (d.lhsIdx_val_of_single hlc _ _).trans hk)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of the plain dimension numbers into the zero accumulator, at the ideal values, at entry (a, b). -/
theorem matmul_zero_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (l : FVec Ideal ⟨2, ![M, K]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 a k) * r (ix2 k b) :=
  (Ideal.matmul_constant_zero_apply d prec l r (ix2 a b)).trans (dot_sum d hlc hrc hln hrn hlb hrb l r a b)

/-- The host's `dot_general` of the plain dimension numbers, at the ideal values, at entry (a, b). -/
theorem dotGeneral_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (sched : HostSchedule)
    (l : FVec Ideal ⟨2, ![M, K]⟩ φ₁) (r : FVec Ideal ⟨2, ![K, N]⟩ φ₂) (a : Fin M) (b : Fin N) :
    FloatOps.dotGeneral d prec sched l r (ix2 a b) = ∑ k : Fin K, l (ix2 a k) * r (ix2 k b) :=
  (Ideal.dotGeneral_apply d prec sched l r (ix2 a b)).trans (dot_sum d hlc hrc hln hrn hlb hrb l r a b)

end Cert.LibPlainDot

end
-- ==== Proof.LibTransposedDot.lean ====
/-
  A matrix product whose LEFT operand is contracted along its FIRST axis, read at an entry.

  For the dimension numbers that contract axis 0 of a K × M matrix against axis 0 of a K × N matrix (the product
  of the left operand's transpose with the right operand, no batch axis) the sum over the product's contraction index is
  the sum over `k : Fin K` of `l (k, a) · r (k, b)`. Stated for ANY record with those dimension numbers, whatever the
  three extents; the form for a `tpu.matmul` into a zero accumulator at the ideal values follows.
-/
import Idealize.ShloMosaic.PureOps.Ideal.Laws
import Idealize.ShloMosaic.Lib.ValueIdx

noncomputable section

namespace Cert.LibTransposedDot

open Idealize.ShloMosaic Idealize.ShloMosaic.ValueIdx

variable {M K N : Nat}

/-- The transposed-left product's sum over its contraction index is the sum over `k : Fin K` of `l (k, a) * r (k, b)`. -/
theorem dot_sum (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (l : (⟨2, ![K, M]⟩ : Shape).Idx → EReal) (r : (⟨2, ![K, N]⟩ : Shape).Idx → EReal) (a : Fin M) (b : Fin N) :
    ∑ k : d.contr.Idx, l (d.lhsIdx (ix2 a b) k) * r (d.rhsIdx (ix2 a b) k) = ∑ k : Fin K, l (ix2 k a) * r (ix2 k b) := by
  obtain ⟨lc, rc, ln, rn, lb, rb, wf⟩ := d
  dsimp only at hlc hrc hln hrn hlb hrb
  subst hlc hrc hln hrn hlb hrb
  generalize hd : (⟨[0], [0], [1], [1], [], [], wf⟩ : DotDims ⟨2, ![K, M]⟩ ⟨2, ![K, N]⟩ ⟨2, ![M, N]⟩) = d
  have hlc : d.lhsContracting = [0] := by rw [← hd]
  have hrc : d.rhsContracting = [0] := by rw [← hd]
  have hr : d.contr.rank = 1 := by rw [← hd]; rfl
  have hs : d.contr.size ⟨0, by omega⟩ = K := by subst hd; rfl
  -- the left operand's kept axis (its second) reads the result's row index
  have l1 : ∀ q : d.contr.Idx, (d.lhsIdx (ix2 a b) q 1).val = a.val := by
    subst hd; intro q
    unfold DotDims.lhsIdx
    rw [dif_neg (show ¬ (1 : Fin 2) ∈ ([] : List (Fin 2)) from List.not_mem_nil),
      dif_pos (show (1 : Fin 2) ∈ ([1] : List (Fin 2)) from List.mem_singleton.mpr rfl)]
    rfl
  -- the right operand's kept axis (its second) reads the result's column index
  have r1 : ∀ q : d.contr.Idx, (d.rhsIdx (ix2 a b) q 1).val = b.val := by
    subst hd; intro q
    unfold DotDims.rhsIdx
    rw [dif_neg (show ¬ (1 : Fin 2) ∈ ([] : List (Fin 2)) from List.not_mem_nil),
      dif_pos (show (1 : Fin 2) ∈ ([1] : List (Fin 2)) from List.mem_singleton.mpr rfl)]
    rfl
  rw [← Equiv.sum_comp (contrEquiv1 d K hr hs).symm]
  refine Finset.sum_congr rfl fun k _ => ?_
  have hk := contrEquiv1_symm_val d K hr hs k
  have el : d.lhsIdx (ix2 a b) ((contrEquiv1 d K hr hs).symm k) = ix2 k a := funext fun ax => Fin.ext (by
    match ax with
    | ⟨0, _⟩ => exact (d.lhsIdx_val_of_single hlc _ _).trans hk
    | ⟨1, _⟩ => exact l1 _)
  have er : d.rhsIdx (ix2 a b) ((contrEquiv1 d K hr hs).symm k) = ix2 k b := funext fun ax => Fin.ext (by
    match ax with
    | ⟨0, _⟩ => exact (d.rhsIdx_val_of_single hrc _ _).trans hk
    | ⟨1, _⟩ => exact r1 _)
  rw [el, er]

/-- A `tpu.matmul` of those dimension numbers into the zero accumulator, at the ideal values, at entry (a, b). -/
theorem matmul_zero_apply {φ₁ φ₂ : FTy} (d : DotDims ⟨2, ![K, M]⟩ ⟨2, ![K, N]⟩ ⟨2, ![M, N]⟩)
    (hlc : d.lhsContracting = [0]) (hrc : d.rhsContracting = [0])
    (hln : d.lhsNonContracting = [1]) (hrn : d.rhsNonContracting = [1])
    (hlb : d.lhsBatch = []) (hrb : d.rhsBatch = [])
    (prec : Option ContractPrecision)
    (l : FVec Ideal ⟨2, ![K, M]⟩ φ₁) (r : FVec Ideal ⟨2, ![K, N]⟩ φ₂) (a : Fin M) (b : Fin N) :
    FloatOps.matmul d prec l r (constant ⟨2, ![M, N]⟩ .f32 0x00000000#32) (ix2 a b) = ∑ k : Fin K, l (ix2 k a) * r (ix2 k b) :=
  (Ideal.matmul_constant_zero_apply d prec l r (ix2 a b)).trans (dot_sum d hlc hrc hln hrn hlb hrb l r a b)

end Cert.LibTransposedDot

end
-- ==== Proof.Payload.lean ====
/-
  The two kernel bodies' stored values read at an entry, at the ideal values: the accumulating body leaves
  `acc + kᵀ · v` of its tile, the output body `(q · KV) · c`, the reset stores zero.
-/
import proofs.«103619_j22514218565864_1_alg».proof.Proof.Gen.KernelIdeal.Skeleton
import proofs.«103619_j22514218565864_1_alg».proof.Proof.Spec
import proofs.«103619_j22514218565864_1_alg».proof.Proof.LibPlainDot
import proofs.«103619_j22514218565864_1_alg».proof.Proof.LibTransposedDot
import Idealize.ShloMosaic.Lib.ValueLayout
import Idealize.ShloMosaic.Lib.Pipeline.Value

noncomputable section

namespace Cert.Attn.Payload

open Idealize.ShloMosaic Idealize.ShloMosaic.ValueIdx Cert.KernelIdeal Cert.KernelIdeal.Gen

/-- A linear layer of the tile at (t, e): the plain product of the tile with the staged weight, plus the bias. -/
private theorem proj_apply (x0 : Vec Ideal S1x1024x768 .f32) (w : Vec Ideal S768x768 .f32) (b : Vec Ideal S768 .f32)
    (t : Fin 1024) (e : Fin 768) :
    (addf (matmul dot_S1024x768_S768x768_S1024x768_1_0_0_1_n_n none
        (truncf .bf16 (shapeCast S1024x768 x0 shapeCasts_S1x1024x768_S1024x768) bitsLt_bf16_f32)
        (truncf .bf16 (shapeCast S768x768 w shapeCasts_S768x768_S768x768) bitsLt_bf16_f32)
        (constant S1024x768 .f32 0x00000000#32))
      (broadcastTo S1024x768 (shapeCast S1x768 b shapeCasts_S768_S1x768) broadcasts_S1x768_S1024x768) : FVec Ideal S1024x768 .f32) (ix2 t e)
      = (∑ j : Fin 768, x0 (ix3 (0 : Fin 1) t j) * w (ix2 j e)) + b (ix1 e) := by
  rw [addf_apply]
  refine congrArg₂ (· + ·) ?_ ?_
  · refine (Cert.LibPlainDot.matmul_zero_apply _ rfl rfl rfl rfl rfl rfl none _ _ t e).trans ?_
    refine Finset.sum_congr rfl fun j _ => ?_
    rw [truncf_apply, truncf_apply, shapeCast_1ab_ab_apply, shapeCast_self]
  · rw [broadcastTo_1b_ab_apply, shapeCast_a_1a_apply]

/-- The reset's stored block is zero everywhere. -/
theorem k0_pay1_apply (i : S1x768x768.Idx) : (k0_pay1 (F := Ideal)) i = 0 := by
  unfold k0_pay1
  exact Ideal.ofBits_zero_f32

/-- The accumulating body's stored block at (e, d): what the block held, plus the tile's `Σ_t k[t,e] · v[t,d]`
    with `k = x · wk + bk`, `v = x · wv + bv` (`wk`, `wv` the weights as staged: already transposed). -/
theorem k0_pay2_apply (x0 : Vec Ideal S1x1024x768 .f32) (wk : Vec Ideal S768x768 .f32) (wv : Vec Ideal S768x768 .f32)
    (bk : Vec Ideal S768 .f32) (bv : Vec Ideal S768 .f32) (acc : Vec Ideal S1x768x768 .f32) (e d : Fin 768) :
    k0_pay2 x0 wk wv bk bv acc (ix3 (0 : Fin 1) e d)
      = acc (ix3 (0 : Fin 1) e d)
        + ∑ t : Fin 1024, ((∑ j : Fin 768, x0 (ix3 (0 : Fin 1) t j) * wk (ix2 j e)) + bk (ix1 e))
            * ((∑ j : Fin 768, x0 (ix3 (0 : Fin 1) t j) * wv (ix2 j d)) + bv (ix1 d)) := by
  unfold k0_pay2
  refine (shapeCast_ab_1ab_apply _ _ 0 e d).trans ?_
  rw [addf_apply]
  refine congrArg₂ (· + ·) (shapeCast_1ab_ab_apply _ _ e d) ?_
  refine (Cert.LibTransposedDot.matmul_zero_apply _ rfl rfl rfl rfl rfl rfl none _ _ e d).trans ?_
  refine Finset.sum_congr rfl fun t _ => ?_
  rw [truncf_apply, truncf_apply]
  exact congrArg₂ (· * ·) (proj_apply x0 wk bk t e) (proj_apply x0 wv bv t d)

/-- The output body's stored block at (t, d): `(Σ_e q[t,e] · kv[e,d]) · c` with `q = x · wq + bq`. -/
theorem k1_pay1_apply (x0 : Vec Ideal S1x1024x768 .f32) (wq : Vec Ideal S768x768 .f32) (bq : Vec Ideal S768 .f32)
    (kv : Vec Ideal S1x768x768 .f32) (t : Fin 1024) (d : Fin 768) :
    k1_pay1 x0 wq bq kv (ix3 (0 : Fin 1) t d)
      = (∑ e : Fin 768, ((∑ j : Fin 768, x0 (ix3 (0 : Fin 1) t j) * wq (ix2 j e)) + bq (ix1 e)) * kv (ix3 (0 : Fin 1) e d))
          * Cert.Attn.scale := by
  unfold k1_pay1
  refine (shapeCast_ab_1ab_apply _ _ 0 t d).trans ?_
  rw [mulf_apply, broadcast_apply]
  refine congrArg₂ (· * ·) ?_ rfl
  refine (Cert.LibPlainDot.matmul_zero_apply _ rfl rfl rfl rfl rfl rfl none _ _ t d).trans ?_
  refine Finset.sum_congr rfl fun e _ => ?_
  rw [truncf_apply, truncf_apply, shapeCast_1ab_ab_apply]
  exact congrArg (· * kv (ix3 (0 : Fin 1) e d)) (proj_apply x0 wq bq t e)

end Cert.Attn.Payload

end
-- ==== Proof.Region0.lean ====
/-
  The first kernel region's result array. Its grid runs over (batch b, tile s); the output block of batch b stays
  in place over the four tiles: the first tile's body resets it to zero and adds the tile's `kᵀ · v`, each later
  tile's body adds its own, and after the fourth tile the block is written back. So block b of the array ends
  holding the four tiles' contributions added in tile order.
-/
import proofs.«103619_j22514218565864_1_alg».proof.Proof.Gen.KernelIdeal.Frame
import proofs.«103619_j22514218565864_1_alg».proof.Proof.Payload
import Idealize.ShloMosaic.Lib.Pipeline.Value
import Idealize.ShloMosaic.Lib.Tactic

set_option maxRecDepth 16384

noncomputable section

namespace Cert.Attn.Region0

open Idealize.ShloMosaic Idealize.ShloMosaic.TcCoe Idealize.ShloMosaic.ValueIdx Idealize.SL.Sem
open Idealize.ShloMosaic.Pipeline (Dat)
open Cert.KernelIdeal Cert.KernelIdeal.Gen Cert.Attn

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- A later tile's body (the block not reset): it leaves the accumulating store's value over what the block held. -/
theorem out_B (c : Dev nD) (i : grid0.Coords) (arg2 : Memref sig .tc .vmem S1x1024x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x768x768 .f32) (harg7 : arg7.IsWhole) (hc0 : ¬cond0_0 i)
    (x0 : Vec Ideal S1x1024x768 .f32) (x1 : Vec Ideal S768x768 .f32) (x2 : Vec Ideal S768 .f32) (x3 : Vec Ideal S768x768 .f32) (x4 : Vec Ideal S768 .f32) (xo5 : Vec Ideal S1x768x768 .f32) :
    out0_B_5 c i arg2 harg2 arg3 harg3 arg4 harg4 arg5 harg5 arg6 harg6 arg7 harg7 hc0 x0 x1 x2 x3 x4 xo5 = k0_pay2 x0 x1 x3 x2 x4 xo5 := by
  unfold out0_B_5
  rw [View.read_writes_eq_canon _ _ _ (cover0_B_5 c i arg2 harg2 arg3 harg3 arg4 harg4 arg5 harg5 arg6 harg6 arg7 harg7 hc0 x0 x1 x2 x3 x4 xo5)]
  unfold kernelRun0_B
  dsimp only
  sl_unfold_words
  rw [View.canon_unit_zero hz3]
  simp only [View.readAt_eq_ld, harg2.read_unread, harg3.read_unread, harg4.read_unread, harg5.read_unread, harg6.read_unread, harg7.read_unread,
    View.ld_unit_zero (S := S1x1024x768) hz3, View.ld_unit_zero (S := S768x768) hz2, View.ld_unit_zero (S := S768) hz1, View.ld_unit_zero (S := S1x768x768) hz3]

/-- The first tile's body: it stores zero, reads it back, and leaves the accumulating store's value over zero. -/
theorem out_A (c : Dev nD) (i : grid0.Coords) (arg2 : Memref sig .tc .vmem S1x1024x768 .f32) (harg2 : arg2.IsWhole) (arg3 : Memref sig .tc .vmem S768x768 .f32) (harg3 : arg3.IsWhole) (arg4 : Memref sig .tc .vmem S768 .f32) (harg4 : arg4.IsWhole) (arg5 : Memref sig .tc .vmem S768x768 .f32) (harg5 : arg5.IsWhole) (arg6 : Memref sig .tc .vmem S768 .f32) (harg6 : arg6.IsWhole) (arg7 : Memref sig .tc .vmem S1x768x768 .f32) (harg7 : arg7.IsWhole) (hc0 : cond0_0 i)
    (x0 : Vec Ideal S1x1024x768 .f32) (x1 : Vec Ideal S768x768 .f32) (x2 : Vec Ideal S768 .f32) (x3 : Vec Ideal S768x768 .f32) (x4 : Vec Ideal S768 .f32) :
    out0_A_5 c i arg2 harg2 arg3 harg3 arg4 harg4 arg5 harg5 arg6 harg6 arg7 harg7 hc0 x0 x1 x2 x3 x4 = k0_pay2 x0 x1 x3 x2 x4 (k0_pay1 (F := Ideal)) := by
  unfold out0_A_5
  rw [View.read_writes_eq_canon _ _ _ (cover0_A_5 c i arg2 harg2 arg3 harg3 arg4 harg4 arg5 harg5 arg6 harg6 arg7 harg7 hc0 x0 x1 x2 x3 x4)]
  unfold kernelRun0_A
  dsimp only
  sl_unfold_words
  rw [View.canon_cons_unit_zero (S := S1x768x768) hz3, View.readCov_unit_zero (S := S1x768x768) _ hz3]
  simp only [View.readAt_eq_ld, harg2.read_unread, harg3.read_unread, harg4.read_unread, harg5.read_unread, harg6.read_unread,
    View.ld_unit_zero (S := S1x1024x768) hz3, View.ld_unit_zero (S := S768x768) hz2, View.ld_unit_zero (S := S768) hz1, View.ld_unit_zero (S := S1x768x768) hz3,
    View.readCov_unit_zero (S := S1x768x768) _ hz3]

variable (V : (c : Dev nD) → (b : Ref sig .tc) → Buf (Elt Ideal) ((c : Thread nD τ).loc b))

/-- The printed index maps over the grid: point `n` reads tile `n % 4` of batch `n / 4`, its output block is batch
    `n / 4`'s, the weights' and biases' blocks stay at the origin. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0 ∧ win0_2.index t (0 : Fin 1) = 0
    ∧ win0_3.index t (0 : Fin 2) = 0 ∧ win0_3.index t (1 : Fin 2) = 0 ∧ win0_4.index t (0 : Fin 1) = 0
    ∧ win0_5.index t (0 : Fin 3) = t.val / 4 ∧ win0_5.index t (1 : Fin 3) = 0 ∧ win0_5.index t (2 : Fin 3) = 0 :=
  (by decide +kernel : ∀ t : Fin grid0.N, _)

/-- Every batch's block is written back at some point. -/
theorem idx_onto : ∀ q0 : Fin 4, ∃ t : Fin cfg0.N, (cfg0.win 5).flush t = true ∧ win0_5.index t = ![q0.val, 0, 0] :=
  (by decide +kernel : ∀ q0 : Fin 4, ∃ t : Fin grid0.N, win0_5.flush t = true ∧ win0_5.index t = ![q0.val, 0, 0])

/-- The tile number is read modulo 4. -/
theorem kvTile_mod (x : FVec Ideal SX .f32) (Wk : FVec Ideal SW .f32) (bk : FVec Ideal SB .f32) (Wv : FVec Ideal SW .f32) (bv : FVec Ideal SB .f32)
    (b : Fin 4) (n : ℕ) (e d : Fin 768) : kvTile x Wk bk Wv bv b (n % 4) e d = kvTile x Wk bk Wv bv b n e d := by
  unfold kvTile
  refine Finset.sum_congr rfl fun r _ => ?_
  have : trow (n % 4) r = trow n r := Fin.ext (by show (n % 4) % 4 * 1024 + r.val = n % 4 * 1024 + r.val; rw [Nat.mod_mod])
  rw [this]

section
variable (c : Dev nD) (x : FVec Ideal SX .f32) (Wk : FVec Ideal SW .f32) (bk : FVec Ideal SB .f32) (Wv : FVec Ideal SW .f32) (bv : FVec Ideal SB .f32)
  (hx : V c main_arg0 = x) (hWk : ∀ j e : Fin 768, V c main_v1 (ix2 j e) = Wk (ix2 e j)) (hbk : V c main_arg4 = bk)
  (hWv : ∀ j d : Fin 768, V c main_v2 (ix2 j d) = Wv (ix2 d j)) (hbv : V c main_arg6 = bv)
include hx hWk hbk hWv hbv

/-- The accumulating store's value at point `t`, entry (e, d): what the block held plus tile `t % 4`'s `Σ k[t,e] · v[t,d]`
    of batch `t / 4`, the point's blocks read where the index maps put them. -/
theorem tile_value (t : Fin cfg0.N) (acc : Vec Ideal S1x768x768 .f32) (e d : Fin 768) (b : Fin 4) (hb : b.val = t.val / 4) :
    k0_pay2 (iblk0 V c 0 t) (iblk0 V c 1 t) (iblk0 V c 3 t) (iblk0 V c 2 t) (iblk0 V c 4 t) acc (ix3 (0 : Fin 1) e d)
      = acc (ix3 (0 : Fin 1) e d) + kvTile x Wk bk Wv bv b t.val e d := by
  refine (Cert.Attn.Payload.k0_pay2_apply (iblk0 V c 0 t) (iblk0 V c 1 t) (iblk0 V c 3 t) (iblk0 V c 2 t) (iblk0 V c 4 t) acc e d).trans ?_
  obtain ⟨f0, f1, f2, f3, f4, f5, f6, f7, f8, f9, f10, f11⟩ := idx_facts t
  refine congrArg (acc (ix3 (0 : Fin 1) e d) + ·) ?_
  unfold kvTile lin
  refine Finset.sum_congr rfl fun r _ => ?_
  have r0 : ∀ j : Fin 768, iblk0 V c 0 t (ix3 (0 : Fin 1) r j) = x (ix3 b (trow t.val r) j) := fun j => by
    rw [← hx]; unfold iblk0; rw [View.read_apply]
    show V c main_arg0 _ = V c main_arg0 _
    congr 1; funext a; apply Fin.ext
    match a with
    | ⟨0, _⟩ => show win0_0.index t (0 : Fin 3) * 1 + 1 * 0 = b.val; omega
    | ⟨1, _⟩ => show win0_0.index t (1 : Fin 3) * 1024 + 1 * r.val = t.val % 4 * 1024 + r.val; omega
    | ⟨2, _⟩ => show win0_0.index t (2 : Fin 3) * 768 + 1 * j.val = j.val; omega
  have r1 : ∀ (j e' : Fin 768), iblk0 V c 1 t (ix2 j e') = Wk (ix2 e' j) := fun j e' => by
    rw [← hWk]; unfold iblk0; rw [View.read_apply]
    show V c main_v1 _ = V c main_v1 _
    congr 1; funext a; apply Fin.ext
    match a with
    | ⟨0, _⟩ => show win0_1.index t (0 : Fin 2) * 768 + 1 * j.val = j.val; omega
    | ⟨1, _⟩ => show win0_1.index t (1 : Fin 2) * 768 + 1 * e'.val = e'.val; omega
  have r2 : ∀ e' : Fin 768, iblk0 V c 2 t (ix1 e') = bk (ix1 e') := fun e' => by
    rw [← hbk]; unfold iblk0; rw [View.read_apply]
    show V c main_arg4 _ = V c main_arg4 _
    congr 1; funext a; apply Fin.ext
    match a with
    | ⟨0, _⟩ => show win0_2.index t (0 : Fin 1) * 768 + 1 * e'.val = e'.val; omega
  have r3 : ∀ (j d' : Fin 768), iblk0 V c 3 t (ix2 j d') = Wv (ix2 d' j) := fun j d' => by
    rw [← hWv]; unfold iblk0; rw [View.read_apply]
    show V c main_v2 _ = V c main_v2 _
    congr 1; funext a; apply Fin.ext
    match a with
    | ⟨0, _⟩ => show win0_3.index t (0 : Fin 2) * 768 + 1 * j.val = j.val; omega
    | ⟨1, _⟩ => show win0_3.index t (1 : Fin 2) * 768 + 1 * d'.val = d'.val; omega
  have r4 : ∀ d' : Fin 768, iblk0 V c 4 t (ix1 d') = bv (ix1 d') := fun d' => by
    rw [← hbv]; unfold iblk0; rw [View.read_apply]
    show V c main_arg6 _ = V c main_arg6 _
    congr 1; funext a; apply Fin.ext
    match a with
    | ⟨0, _⟩ => show win0_4.index t (0 : Fin 1) * 768 + 1 * d'.val = d'.val; omega
  simp only [r0, r1, r2, r3, r4]

/-- What the output's staging buffer holds after point `n` is the accumulator of batch `n / 4` after tile `n % 4` — by
    induction on the point: a first tile starts from zero, a later tile adds to what the point before left. -/
theorem outsAt_eq : ∀ (n : ℕ) (h : n < cfg0.N) (b : Fin 4) (hb : b.val = n / 4) (e d : Fin 768),
    outsAt0 V c n h (ix3 (0 : Fin 1) e d) = kvAcc x Wk bk Wv bv b (n % 4) e d
  | 0, h, b, hb, e, d => by
    rw [outsAt0_A V c ⟨0, h⟩ rfl, out_A]
    refine (tile_value V c x Wk bk Wv bv hx hWk hbk hWv hbv ⟨0, h⟩ (k0_pay1 (F := Ideal)) e d b hb).trans ?_
    rw [Cert.Attn.Payload.k0_pay1_apply, zero_add]
    rfl
  | n + 1, h, b, hb, e, d => by
    have hN : cfg0.N = 16 := N_0
    by_cases h0 : (n + 1) % 4 = 0
    · rw [outsAt0_A V c ⟨n + 1, h⟩ h0, out_A]
      refine (tile_value V c x Wk bk Wv bv hx hWk hbk hWv hbv ⟨n + 1, h⟩ (k0_pay1 (F := Ideal)) e d b hb).trans ?_
      rw [Cert.Attn.Payload.k0_pay1_apply, zero_add, h0]
      show kvTile x Wk bk Wv bv b (n + 1) e d = kvTile x Wk bk Wv bv b 0 e d
      rw [← kvTile_mod, h0]
    · have hB : ¬(⟨n + 1, h⟩ : Fin cfg0.N).val % 4 = 0 := h0
      rw [outsAt0_B V c ⟨n + 1, h⟩ hB, out_B]
      refine (tile_value V c x Wk bk Wv bv hx hWk hbk hWv hbv ⟨n + 1, h⟩ (outsAt0 V c n (Nat.lt_of_succ_lt h)) e d b hb).trans ?_
      have hb' : b.val = n / 4 := by omega
      rw [outsAt_eq n (Nat.lt_of_succ_lt h) b hb' e d]
      have hm : (n + 1) % 4 = n % 4 + 1 := by omega
      rw [hm]
      show _ = kvAcc x Wk bk Wv bv b (n % 4) e d + kvTile x Wk bk Wv bv b (n % 4 + 1) e d
      rw [← kvTile_mod x Wk bk Wv bv b (n + 1), hm]

/-- The write-back after a batch's last tile writes block `b` of the array of the matrices `kᵀ · v`. -/
theorem flushed_eq (t : Fin cfg0.N) (hf : (cfg0.win 5).flush t = true) :
    (dat0 V c).flushed 5 t = ((cfg0.win 5).blk t).view.read (Elt Ideal) (kvArr x Wk bk Wv bv) := by
  have hN : cfg0.N = 16 := N_0
  have h3 : t.val % 4 = 3 := (flush0_5 t).mp hf
  have ht : t.val < 16 := lt_of_lt_of_eq t.isLt hN
  show (cfg0.win 5).cut (grid0.coords t) ((dat0 V c).after 5 t) = _
  rw [after0_5]
  obtain ⟨f0, f1, f2, f3, f4, f5, f6, f7, f8, f9, f10, f11⟩ := idx_facts t
  funext y
  obtain ⟨u, e, d, rfl⟩ : ∃ (u : Fin 1) (e : Fin 768) (d : Fin 768), y = ix3 u e d := ⟨y 0, y 1, y 2, eq_ix3 y⟩
  obtain rfl : u = 0 := Subsingleton.elim _ _
  show outsAt0 V c t.val t.isLt (ix3 (0 : Fin 1) e d) = kvArr x Wk bk Wv bv (((cfg0.win 5).blk t).view.emb (ix3 (0 : Fin 1) e d))
  rw [outsAt_eq V c x Wk bk Wv bv hx hWk hbk hWv hbv t.val t.isLt ⟨t.val / 4, by omega⟩ rfl e d]
  have hemb : ((cfg0.win 5).blk t).view.emb (ix3 (0 : Fin 1) e d) = ix3 (⟨t.val / 4, by omega⟩ : Fin 4) e d := by
    funext a; apply Fin.ext
    match a with
    | ⟨0, _⟩ => show win0_5.index t (0 : Fin 3) * 1 + 1 * 0 = t.val / 4; omega
    | ⟨1, _⟩ => show win0_5.index t (1 : Fin 3) * 768 + 1 * e.val = e.val; omega
    | ⟨2, _⟩ => show win0_5.index t (2 : Fin 3) * 768 + 1 * d.val = d.val; omega
  rw [hemb, kvArr_apply, h3]

end

/-- An index of the array is in point `t`'s block iff each coordinate is in the block's range on its axis. -/
theorem mem_blk (t : Fin cfg0.N) (i : S4x768x768.Idx) :
    i ∈ ((cfg0.win 5).blk t).view.set ↔ ∀ a : Fin 3, win0_5.index t a * S1x768x768.size a ≤ (i a).val ∧ (i a).val < win0_5.index t a * S1x768x768.size a + S1x768x768.size a := by
  show i ∈ ((View.whole main_v3).slice (win0_5.rect t)).set ↔ _
  rw [View.set_slice_whole, Rect.mem_set_unit]
  exact Iff.rfl

/-- The four written-back blocks tile the array. -/
theorem cover (i : S4x768x768.Idx) :
    ∃ t : Fin cfg0.N, (cfg0.win 5).flush t = true ∧ i ∈ ((cfg0.win 5).blk t).view.set := by
  have hi0 : (i 0).val < 4 := (i 0).isLt
  have hi1 : (i 1).val < 768 := (i 1).isLt
  have hi2 : (i 2).val < 768 := (i 2).isLt
  obtain ⟨t, hf, ht⟩ := idx_onto ⟨(i 0).val, hi0⟩
  have q0 : win0_5.index t (0 : Fin 3) = (i 0).val := congrFun ht 0
  have q1 : win0_5.index t (1 : Fin 3) = 0 := congrFun ht 1
  have q2 : win0_5.index t (2 : Fin 3) = 0 := congrFun ht 2
  refine ⟨t, hf, ?_⟩
  rw [mem_blk]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 768 ≤ (i 1).val ∧ (i 1).val < win0_5.index t (1 : Fin 3) * 768 + 768; omega
  | ⟨2, _⟩ => show win0_5.index t (2 : Fin 3) * 768 ≤ (i 2).val ∧ (i 2).val < win0_5.index t (2 : Fin 3) * 768 + 768; omega

/-- The array of the matrices `kᵀ · v` after the region, as a function of the arrays the region finds: the activations,
    the two weights as staged (transposed), the two biases. -/
theorem arr_eq (c : Dev nD) (x : FVec Ideal SX .f32) (Wk : FVec Ideal SW .f32) (bk : FVec Ideal SB .f32) (Wv : FVec Ideal SW .f32) (bv : FVec Ideal SB .f32)
    (hx : V c main_arg0 = x) (hWk : ∀ j e : Fin 768, V c main_v1 (ix2 j e) = Wk (ix2 e j)) (hbk : V c main_arg4 = bk)
    (hWv : ∀ j d : Fin 768, V c main_v2 (ix2 j d) = Wv (ix2 d j)) (hbv : V c main_arg6 = bv) :
    (dat0 V c).arrAt 5 cfg0.N = kvArr x Wk bk Wv bv :=
  (dat0 V c).arrAt_eq_of_cover 5 (kvArr x Wk bk Wv bv)
    (fun t hf => flushed_eq V c x Wk bk Wv bv hx hWk hbk hWv hbv t hf) cover

end Cert.Attn.Region0

end
-- ==== Proof.Region1.lean ====
/-
  The second kernel region's result array. Each grid point (b, s) writes back one 1024 × 768 block of the result:
  rows s·1024 … s·1024 + 1023 of batch b, each entry `(Σ_e q[t,e] · KV[b][e,d]) · c` with `q = x · wq + bq` of the
  point's block of x. The sixteen blocks tile the array, so it ends holding that function of the arrays the region
  finds, entry by entry.
-/
import proofs.«103619_j22514218565864_1_alg».proof.Proof.Gen.KernelIdeal.Frame
import proofs.«103619_j22514218565864_1_alg».proof.Proof.Payload
import Idealize.ShloMosaic.Lib.Pipeline.Value

set_option maxRecDepth 16384

noncomputable section

namespace Cert.Attn.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem hz3 : (![0, 0, 0] : Fin 3 → Nat) = fun _ => 0 := funext fun a => by fin_cases a <;> rfl
theorem hz2 : (![0, 0] : Fin 2 → Nat) = fun _ => 0 := funext fun a => by fin_cases a <;> rfl
theorem hz1 : (![0] : Fin 1 → Nat) = fun _ => 0 := funext fun a => by fin_cases a <;> rfl

/-- The result array as one function of the activations, the staged (transposed) query weight, its bias and the
    array of the matrices `kᵀ · v`. -/
def G (x : S4x4096x768.Idx → EReal) (wq : S768x768.Idx → EReal) (bq : S768.Idx → EReal) (kv : S4x768x768.Idx → EReal) :
    S4x4096x768.Idx → EReal := fun i =>
  (∑ e : Fin 768, ((∑ j : Fin 768, x (ix3 (i 0) (i 1) j) * wq (ix2 j e)) + bq (ix1 e)) * kv (ix3 (i 0) e (i 2))) * Cert.Attn.scale

/-- The printed index maps over the grid: the activations' and the result's blocks move together, the matrix block
    follows the batch coordinate, the weight and bias blocks stay at the origin. -/
theorem idx_facts : ∀ t : Fin cfg1.N,
    win1_0.index t (0 : Fin 3) = win1_4.index t (0 : Fin 3) ∧ win1_0.index t (1 : Fin 3) = win1_4.index t (1 : Fin 3)
    ∧ win1_0.index t (2 : Fin 3) = 0 ∧ win1_4.index t (2 : Fin 3) = 0
    ∧ win1_3.index t (0 : Fin 3) = win1_4.index t (0 : Fin 3) ∧ win1_3.index t (1 : Fin 3) = 0 ∧ win1_3.index t (2 : Fin 3) = 0
    ∧ win1_1.index t (0 : Fin 2) = 0 ∧ win1_1.index t (1 : Fin 2) = 0 ∧ win1_2.index t (0 : Fin 1) = 0
    ∧ win1_4.index t (0 : Fin 3) ≤ 3 ∧ win1_4.index t (1 : Fin 3) ≤ 3 :=
  (by decide +kernel : ∀ t : Fin grid1.N, _)

/-- Every block of the result is some point's. -/
theorem idx_onto : ∀ (q0 : Fin 4) (q1 : Fin 4), ∃ t : Fin cfg1.N, win1_4.index t = ![q0.val, q1.val, 0] :=
  (by decide +kernel : ∀ (q0 : Fin 4) (q1 : Fin 4), ∃ t : Fin grid1.N, win1_4.index t = ![q0.val, q1.val, 0])

/-- What point `t` writes back is block `t` of `G` of the arrays as the region finds them. -/
theorem flushed_eq (c : Dev nD) (t : Fin cfg1.N) :
    (dat1 V c).flushed 4 t
      = ((cfg1.win 4).blk t).view.read (Elt Ideal) (G (V c main_arg0) (V c main_v0) (V c main_arg2) (V c main_v3)) := by
  show (cfg1.win 4).cut (grid1.coords t) ((dat1 V c).after 4 t) = _
  rw [after1_4]
  unfold out1_4
  rw [View.canon_unit_zero hz3]
  simp only [View.ld_unit_zero (S := S1x1024x768) hz3, View.ld_unit_zero (S := S768x768) hz2, View.ld_unit_zero (S := S768) hz1,
    View.ld_unit_zero (S := S1x768x768) hz3]
  obtain ⟨e0, e1, e2, e3, e4, e5, e6, e7, e8, e9, e10, e11⟩ := idx_facts t
  funext y
  obtain ⟨u, p, q, rfl⟩ : ∃ (u : Fin 1) (p : Fin 1024) (q : Fin 768), y = ix3 u p q := ⟨y 0, y 1, y 2, eq_ix3 y⟩
  obtain rfl : u = 0 := Subsingleton.elim _ _
  show k1_pay1 (iblk1 V c 0 t) (iblk1 V c 1 t) (iblk1 V c 2 t) (iblk1 V c 3 t) (ix3 (0 : Fin 1) p q)
    = G (V c main_arg0) (V c main_v0) (V c main_arg2) (V c main_v3) (((cfg1.win 4).blk t).view.emb (ix3 (0 : Fin 1) p q))
  refine (Cert.Attn.Payload.k1_pay1_apply (iblk1 V c 0 t) (iblk1 V c 1 t) (iblk1 V c 2 t) (iblk1 V c 3 t) p q).trans ?_
  unfold G
  have r0 : ∀ j : Fin 768, iblk1 V c 0 t (ix3 (0 : Fin 1) p j)
      = V c main_arg0 (ix3 (((cfg1.win 4).blk t).view.emb (ix3 (0 : Fin 1) p q) 0) (((cfg1.win 4).blk t).view.emb (ix3 (0 : Fin 1) p q) 1) j) := fun j => by
    unfold iblk1; rw [View.read_apply]
    show V c main_arg0 _ = V c main_arg0 _
    congr 1; funext a; apply Fin.ext
    match a with
    | ⟨0, _⟩ => show win1_0.index t (0 : Fin 3) * 1 + 1 * 0 = win1_4.index t (0 : Fin 3) * 1 + 1 * 0; omega
    | ⟨1, _⟩ => show win1_0.index t (1 : Fin 3) * 1024 + 1 * p.val = win1_4.index t (1 : Fin 3) * 1024 + 1 * p.val; omega
    | ⟨2, _⟩ => show win1_0.index t (2 : Fin 3) * 768 + 1 * j.val = j.val; omega
  have r1 : ∀ (j e : Fin 768), iblk1 V c 1 t (ix2 j e) = V c main_v0 (ix2 j e) := fun j e => by
    unfold iblk1; rw [View.read_apply]
    show V c main_v0 _ = V c main_v0 _
    congr 1; funext a; apply Fin.ext
    match a with
    | ⟨0, _⟩ => show win1_1.index t (0 : Fin 2) * 768 + 1 * j.val = j.val; omega
    | ⟨1, _⟩ => show win1_1.index t (1 : Fin 2) * 768 + 1 * e.val = e.val; omega
  have r2 : ∀ e : Fin 768, iblk1 V c 2 t (ix1 e) = V c main_arg2 (ix1 e) := fun e => by
    unfold iblk1; rw [View.read_apply]
    show V c main_arg2 _ = V c main_arg2 _
    congr 1; funext a; apply Fin.ext
    match a with
    | ⟨0, _⟩ => show win1_2.index t (0 : Fin 1) * 768 + 1 * e.val = e.val; omega
  have r3 : ∀ e : Fin 768, iblk1 V c 3 t (ix3 (0 : Fin 1) e q)
      = V c main_v3 (ix3 (((cfg1.win 4).blk t).view.emb (ix3 (0 : Fin 1) p q) 0) e (((cfg1.win 4).blk t).view.emb (ix3 (0 : Fin 1) p q) 2)) := fun e => by
    unfold iblk1; rw [View.read_apply]
    show V c main_v3 _ = V c main_v3 _
    congr 1; funext a; apply Fin.ext
    match a with
    | ⟨0, _⟩ => show win1_3.index t (0 : Fin 3) * 1 + 1 * 0 = win1_4.index t (0 : Fin 3) * 1 + 1 * 0; omega
    | ⟨1, _⟩ => show win1_3.index t (1 : Fin 3) * 768 + 1 * e.val = e.val; omega
    | ⟨2, _⟩ => show win1_3.index t (2 : Fin 3) * 768 + 1 * q.val = win1_4.index t (2 : Fin 3) * 768 + 1 * q.val; omega
  simp only [r0, r1, r2, r3]

/-- An index of the result is in point `t`'s block iff each coordinate is in the block's range on its axis. -/
theorem mem_blk (t : Fin cfg1.N) (i : S4x4096x768.Idx) :
    i ∈ ((cfg1.win 4).blk t).view.set ↔ ∀ a : Fin 3, win1_4.index t a * S1x1024x768.size a ≤ (i a).val ∧ (i a).val < win1_4.index t a * S1x1024x768.size a + S1x1024x768.size a := by
  show i ∈ ((View.whole main_v4).slice (win1_4.rect t)).set ↔ _
  rw [View.set_slice_whole, Rect.mem_set_unit]
  exact Iff.rfl

/-- The sixteen blocks tile the result: entry (b, s, d) lies in the block of the point with coordinates (b, s / 1024). -/
theorem cover (i : S4x4096x768.Idx) :
    ∃ t : Fin cfg1.N, (cfg1.win 4).flush t = true ∧ i ∈ ((cfg1.win 4).blk t).view.set := by
  have hi0 : (i 0).val < 4 := (i 0).isLt
  have hi1 : (i 1).val < 4096 := (i 1).isLt
  have hi2 : (i 2).val < 768 := (i 2).isLt
  obtain ⟨t, ht⟩ := idx_onto ⟨(i 0).val, hi0⟩ ⟨(i 1).val / 1024, by omega⟩
  have q0 : win1_4.index t (0 : Fin 3) = (i 0).val := congrFun ht 0
  have q1 : win1_4.index t (1 : Fin 3) = (i 1).val / 1024 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 1024 ≤ (i 1).val ∧ (i 1).val < win1_4.index t (1 : Fin 3) * 1024 + 1024; omega
  | ⟨2, _⟩ => show win1_4.index t (2 : Fin 3) * 768 ≤ (i 2).val ∧ (i 2).val < win1_4.index t (2 : Fin 3) * 768 + 768; omega

/-- The result array after the region: `G` of the arrays the region finds. -/
theorem arr_eq (c : Dev nD) :
    (dat1 V c).arrAt 4 cfg1.N = G (V c main_arg0) (V c main_v0) (V c main_arg2) (V c main_v3) :=
  (dat1 V c).arrAt_eq_of_cover 4 (G (V c main_arg0) (V c main_v0) (V c main_arg2) (V c main_v3))
    (fun t _ => flushed_eq V c t) cover

end Cert.Attn.Region1

end
-- ==== Proof.KernelRun.lean ====
/-
  The kernel program's run with its result named. @main transposes the three weights, runs the first region (the
  matrices `kᵀ · v`, batch by batch) and then the second (`(q · KV[b]) · c`); the second region finds the first's
  result array and the transposed query weight untouched, so the result is `kernelOut` of the seven arguments.
-/
import proofs.«103619_j22514218565864_1_alg».proof.Proof.FrameNamed
import proofs.«103619_j22514218565864_1_alg».proof.Proof.Region0
import proofs.«103619_j22514218565864_1_alg».proof.Proof.Region1
import Idealize.ShloMosaic.Lib.StableHlo.Run
import Idealize.ShloMosaic.Lib.ValueLayout

set_option maxRecDepth 16384

noncomputable section

namespace Cert.Attn.KernelRun

open Idealize.ShloMosaic Idealize.ShloMosaic.TcCoe Idealize.ShloMosaic.ValueIdx Idealize.SL.Sem
open Idealize.ShloMosaic.StableHlo
open Idealize.ShloMosaic.Pipeline (Dat)
open Cert.KernelIdeal Cert.KernelIdeal.Gen Cert.Attn

variable (m : (ℓ : Loc nD τ sig) → Buf (Elt Ideal) ℓ) (ρ : Dev nD → PrngReg)

/-! ## What the first region finds: the arguments as launched, the weights transposed -/

theorem V1_arg0 (c : Dev nD) : V1 m ρ c main_arg0 = (m ((c.tc : Thread nD τ).loc main_arg0)) := by
  dsimp only [V1, W1, hostOps0]; after_results
theorem V1_arg2 (c : Dev nD) : V1 m ρ c main_arg2 = (m ((c.tc : Thread nD τ).loc main_arg2)) := by
  dsimp only [V1, W1, hostOps0]; after_results
theorem V1_arg4 (c : Dev nD) : V1 m ρ c main_arg4 = (m ((c.tc : Thread nD τ).loc main_arg4)) := by
  dsimp only [V1, W1, hostOps0]; after_results
theorem V1_arg6 (c : Dev nD) : V1 m ρ c main_arg6 = (m ((c.tc : Thread nD τ).loc main_arg6)) := by
  dsimp only [V1, W1, hostOps0]; after_results
theorem V1_v0 (c : Dev nD) : (V1 m ρ c main_v0 : S768x768.Idx → EReal)
    = transpose S768x768 [1, 0] (m ((c.tc : Thread nD τ).loc main_arg1)) transposes_S768x768_S768x768_1_0 := by
  dsimp only [V1, W1, hostOps0]; after_results
theorem V1_v1 (c : Dev nD) : (V1 m ρ c main_v1 : S768x768.Idx → EReal)
    = transpose S768x768 [1, 0] (m ((c.tc : Thread nD τ).loc main_arg3)) transposes_S768x768_S768x768_1_0 := by
  dsimp only [V1, W1, hostOps0]; after_results
theorem V1_v2 (c : Dev nD) : (V1 m ρ c main_v2 : S768x768.Idx → EReal)
    = transpose S768x768 [1, 0] (m ((c.tc : Thread nD τ).loc main_arg5)) transposes_S768x768_S768x768_1_0 := by
  dsimp only [V1, W1, hostOps0]; after_results

/-! ## What the second region finds -/

theorem V2_arg0 (c : Dev nD) : V2 m ρ c main_arg0 = (m ((c.tc : Thread nD τ).loc main_arg0)) :=
  ((W2_arr m ρ c 0).trans (((dat0 (V1 m ρ) c).arrAt_in 0 rfl _).trans (A_eq0 (V1 m ρ) c 0))).trans (V1_arg0 m ρ c)
theorem V2_arg2 (c : Dev nD) : V2 m ρ c main_arg2 = (m ((c.tc : Thread nD τ).loc main_arg2)) :=
  (W2_of_ne m ρ c main_arg2 (by decide)).trans (V1_arg2 m ρ c)
theorem V2_v0 (c : Dev nD) : (V2 m ρ c main_v0 : S768x768.Idx → EReal)
    = transpose S768x768 [1, 0] (m ((c.tc : Thread nD τ).loc main_arg1)) transposes_S768x768_S768x768_1_0 :=
  (W2_of_ne m ρ c main_v0 (by decide)).trans (V1_v0 m ρ c)
/-- The first region's result array: the matrices `kᵀ · v` of the arguments. -/
theorem V2_v3 (c : Dev nD) : V2 m ρ c main_v3 = kvArr (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) :=
  (W2_arr m ρ c 5).trans (Cert.Attn.Region0.arr_eq (V1 m ρ) c _ _ _ _ _ (V1_arg0 m ρ c)
    (fun j e => by rw [V1_v1]; exact transpose_ix2_apply _ _ j e) (V1_arg4 m ρ c)
    (fun j d => by rw [V1_v2]; exact transpose_ix2_apply _ _ j d) (V1_arg6 m ρ c))

/-! ## The result -/

/-- The second region's function of what it finds is the kernel's result of the arguments. -/
theorem G_eq (x : FVec Ideal SX .f32) (Wq : FVec Ideal SW .f32) (bq : FVec Ideal SB .f32) (Wk : FVec Ideal SW .f32) (bk : FVec Ideal SB .f32)
    (Wv : FVec Ideal SW .f32) (bv : FVec Ideal SB .f32) :
    Cert.Attn.Region1.G x (transpose S768x768 [1, 0] Wq transposes_S768x768_S768x768_1_0) bq (kvArr x Wk bk Wv bv)
      = kernelOut x Wq bq Wk bk Wv bv := by
  funext i
  obtain ⟨b, s, d, rfl⟩ : ∃ (b : Fin 4) (s : Fin 4096) (d : Fin 768), i = ix3 b s d := ⟨i 0, i 1, i 2, eq_ix3 i⟩
  rw [kernelOut_apply]
  show (∑ e : Fin 768, ((∑ j : Fin 768, x (ix3 b s j) * transpose S768x768 [1, 0] Wq transposes_S768x768_S768x768_1_0 (ix2 j e)) + bq (ix1 e))
      * kvArr x Wk bk Wv bv (ix3 b e d)) * scale = _
  unfold lin
  refine congrArg (· * scale) (Finset.sum_congr rfl fun e _ => ?_)
  rw [kvArr_apply]
  refine congrArg (· * kvAcc x Wk bk Wv bv b 3 e d) (congrArg (· + bq (ix1 e)) (Finset.sum_congr rfl fun j _ => ?_))
  rw [transpose_ix2_apply]

theorem result_eq (c : Dev nD) : W3 m ρ c (Proc.devRef .tc main_v4)
    = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  refine (W3_arr m ρ c 4).trans ((Cert.Attn.Region1.arr_eq (V2 m ρ) c).trans ?_)
  rw [V2_arg0, V2_v0, V2_arg2, V2_v3]
  exact G_eq _ _ _ _ _ _ _

/-- Every execution of the kernel program ends with its result at `kernelOut` of the arguments, the arguments as launched. -/
theorem run : θ_run (defs (F := Ideal)) (onTc (τ := τ) (main (F := Ideal))) ⟨m, fun _ => 0, ρ⟩ (fun r => ∀ c : Dev nD,
      r.2.mem ((c.tc : Thread nD τ).loc main_v4) = kernelOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨(h c).1.trans (result_eq m ρ c), (h c).2⟩) (Cert.KernelIdeal.Named.run_named m ρ)

end Cert.Attn.KernelRun

end
-- ==== Proof.RefRun.lean ====
/-
  The reference's run: every execution ends with its result array at `((q · kᵀ) · c) · v` of the argument arrays,
  entry by entry, and the arguments as launched.
-/
import proofs.«103619_j22514218565864_1_alg».proof.Defs
import proofs.«103619_j22514218565864_1_alg».proof.Proof.Gen.ReferenceIdeal.Run
import proofs.«103619_j22514218565864_1_alg».proof.Proof.Gen.ReferenceIdeal.Read
import proofs.«103619_j22514218565864_1_alg».proof.Proof.Spec

noncomputable section

namespace Cert.Attn.RefRun

open Idealize.ShloMosaic Idealize.ShloMosaic.TcCoe Idealize.SL.Sem

section Read

open Idealize.ShloMosaic.ValueIdx Cert.ReferenceIdeal Cert.ReferenceIdeal.Read

/-- A linear layer of the reference read at (b, s, e): the sum over the input features of `x[b,s,·] · W[e,·]`, plus the
    bias at e (the bias is broadcast along the batch and row axes, so only its feature coordinate is read). -/
private theorem linear_read (x : FVec Ideal SX .f32) (W : FVec Ideal SW .f32) (β : FVec Ideal SB .f32)
    (b : Fin 4) (s : Fin 4096) (e : Fin 768) :
    val_main_v3 (F := Ideal) x W β (ix3 b s e) = lin x W β b s e := by
  have hl : ∀ k : Fin 768, lidx_main_v0 (ix3 b s e) k = ix3 b s k := fun k => funext fun a => Fin.ext (by
    match a with | ⟨0, _⟩ => rfl | ⟨1, _⟩ => rfl | ⟨2, _⟩ => rfl)
  have hr : ∀ k : Fin 768, ridx_main_v0 (ix3 b s e) k = ix2 e k := fun k => funext fun a => Fin.ext (by
    match a with | ⟨0, _⟩ => rfl | ⟨1, _⟩ => rfl)
  have hb : idx_main_v1 (idx_main_v2 (ix3 b s e)) = ix1 e := funext fun a => Fin.ext (by
    match a with | ⟨0, _⟩ => rfl)
  rw [val_main_v3_apply, val_main_v0_apply, val_main_v2_apply, val_main_v1_apply]
  simp only [Ideal.addf_def, hl, hr, hb]
  rfl

/-- The three linear layers are the same operations on different weights and biases. -/
private theorem key_layer (x : FVec Ideal SX .f32) (W : FVec Ideal SW .f32) (β : FVec Ideal SB .f32) :
    val_main_v7 (F := Ideal) x W β = val_main_v3 (F := Ideal) x W β := rfl
private theorem value_layer (x : FVec Ideal SX .f32) (W : FVec Ideal SW .f32) (β : FVec Ideal SB .f32) :
    val_main_v11 (F := Ideal) x W β = val_main_v3 (F := Ideal) x W β := rfl

/-- The reference's last stage is `refOut`: at (b, s, d) the sum over the rows t of the scaled score of (s, t) times v[b,t,d]. -/
private theorem stage_eq (x : FVec Ideal SX .f32) (Wq : FVec Ideal SW .f32) (bq : FVec Ideal SB .f32) (Wk : FVec Ideal SW .f32)
    (bk : FVec Ideal SB .f32) (Wv : FVec Ideal SW .f32) (bv : FVec Ideal SB .f32) :
    val_main_v15 (F := Ideal) x Wq bq Wk bk Wv bv = refOut x Wq bq Wk bk Wv bv := by
  funext i
  obtain ⟨b, s, d, rfl⟩ : ∃ (b : Fin 4) (s : Fin 4096) (d : Fin 768), i = ix3 b s d := ⟨i 0, i 1, i 2, eq_ix3 i⟩
  have hl15 : ∀ t : Fin 4096, lidx_main_v15 (ix3 b s d) t = ix3 b s t := fun t => funext fun a => Fin.ext (by
    match a with | ⟨0, _⟩ => rfl | ⟨1, _⟩ => rfl | ⟨2, _⟩ => rfl)
  have hr15 : ∀ t : Fin 4096, ridx_main_v15 (ix3 b s d) t = ix3 b t d := fun t => funext fun a => Fin.ext (by
    match a with | ⟨0, _⟩ => rfl | ⟨1, _⟩ => rfl | ⟨2, _⟩ => rfl)
  have hl12 : ∀ (t : Fin 4096) (e : Fin 768), lidx_main_v12 (ix3 b s t) e = ix3 b s e := fun t e => funext fun a => Fin.ext (by
    match a with | ⟨0, _⟩ => rfl | ⟨1, _⟩ => rfl | ⟨2, _⟩ => rfl)
  have hr12 : ∀ (t : Fin 4096) (e : Fin 768), ridx_main_v12 (ix3 b s t) e = ix3 b t e := fun t e => funext fun a => Fin.ext (by
    match a with | ⟨0, _⟩ => rfl | ⟨1, _⟩ => rfl | ⟨2, _⟩ => rfl)
  rw [val_main_v15_apply, refOut_apply]
  refine Finset.sum_congr rfl fun t _ => ?_
  rw [hl15, hr15, val_main_v14_apply, val_main_v12_apply, val_main_v13_apply, val_main_cst_apply, value_layer, linear_read]
  simp only [Ideal.mulf_def, Ideal.ofBits_def, hl12, hr12, key_layer, linear_read, scale]

end Read

theorem run (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v15) = Cert.Attn.refOut (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)) := by
  exact (θ_run (Cert.ReferenceIdeal.defs (F := Ideal)) _ _).mono
    (fun _ h c => ⟨(h c).1.trans ((Cert.ReferenceIdeal.Read.val_main_v15_eq (F := Ideal) _ _ _ _ _ _ _).trans (stage_eq _ _ _ _ _ _ _)), (h c).2⟩)
    (Cert.ReferenceIdeal.Value.run (F := Ideal) m ρ)

end Cert.Attn.RefRun

end
-- ==== Proof.LibFiniteOps.lean ====
/-
  Extended reals that are real numbers, and the operations that keep them so.

  At the ideal float instance a float is an extended real. A vector is "all real" when each of its entries is
  the image of a real number; this file shows that each operation a host program or a kernel body applies
  entrywise, by re-indexing, or by a finite sum keeps that property, under the side conditions division and
  the reciprocal square root need (a nonzero, respectively positive, real operand). It also records the sign
  facts those side conditions are discharged from: sums of nonnegative reals are nonnegative, a square is
  nonnegative, a nonnegative real plus a positive one is positive. Last, a finiteness precondition (every entry's
  absolute value below positive infinity) is read back as: the vector is all real.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.ReduceAll

noncomputable section

namespace Idealize.ShloMosaic.FiniteOps

open Idealize.ShloMosaic
open scoped BigOperators

/-! ### One extended real -/

/-- An extended real that is (the image of) a real number. -/
def IsReal (a : EReal) : Prop := ∃ x : ℝ, a = (x : EReal)
/-- … that is a nonnegative real number. -/
def IsNonneg (a : EReal) : Prop := ∃ x : ℝ, 0 ≤ x ∧ a = (x : EReal)
/-- … that is a positive real number. -/
def IsPos (a : EReal) : Prop := ∃ x : ℝ, 0 < x ∧ a = (x : EReal)

theorem IsReal.coe (x : ℝ) : IsReal (x : EReal) := ⟨x, rfl⟩
theorem IsNonneg.isReal {a : EReal} (h : IsNonneg a) : IsReal a := let ⟨x, _, e⟩ := h; ⟨x, e⟩
theorem IsPos.isNonneg {a : EReal} (h : IsPos a) : IsNonneg a := let ⟨x, hx, e⟩ := h; ⟨x, hx.le, e⟩
theorem IsPos.isReal {a : EReal} (h : IsPos a) : IsReal a := h.isNonneg.isReal

/-- Being real is being neither infinity. -/
theorem isReal_iff {a : EReal} : IsReal a ↔ a ≠ ⊤ ∧ a ≠ ⊥ :=
  ⟨fun ⟨x, e⟩ => e ▸ ⟨EReal.coe_ne_top x, EReal.coe_ne_bot x⟩, fun ⟨h1, h2⟩ => ⟨a.toReal, (EReal.coe_toReal h1 h2).symm⟩⟩

/-- A nonnegative real is a real that is at least zero in the order of the extended reals. -/
theorem isNonneg_iff {a : EReal} : IsNonneg a ↔ IsReal a ∧ 0 ≤ a :=
  ⟨fun ⟨x, hx, e⟩ => ⟨⟨x, e⟩, e ▸ EReal.coe_nonneg.2 hx⟩, fun ⟨⟨x, e⟩, h⟩ => ⟨x, EReal.coe_nonneg.1 (e ▸ h), e⟩⟩

/-- A positive real is a real that is above zero in the order of the extended reals. -/
theorem isPos_iff {a : EReal} : IsPos a ↔ IsReal a ∧ 0 < a :=
  ⟨fun ⟨x, hx, e⟩ => ⟨⟨x, e⟩, e ▸ EReal.coe_pos.2 hx⟩, fun ⟨⟨x, e⟩, h⟩ => ⟨x, EReal.coe_pos.1 (e ▸ h), e⟩⟩

theorem IsPos.ne_zero {a : EReal} (h : IsPos a) : a ≠ 0 := by
  obtain ⟨x, hx, rfl⟩ := h; exact EReal.coe_ne_zero.2 hx.ne'

theorem isReal_zero : IsReal 0 := ⟨0, rfl⟩
theorem isNonneg_zero : IsNonneg 0 := ⟨0, le_rfl, rfl⟩
theorem isPos_one : IsPos 1 := ⟨1, one_pos, rfl⟩

theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.max {a b : EReal} (ha : IsReal a) (hb : IsReal b) : IsReal (Max.max a b) := by
  rcases le_total a b with h | h
  · rw [show Max.max a b = b from max_eq_right h]; exact hb
  · rw [show Max.max a b = a from max_eq_left h]; exact ha

theorem IsNonneg.add {a b : EReal} (ha : IsNonneg a) (hb : IsNonneg b) : IsNonneg (a + b) := by
  obtain ⟨x, hx, rfl⟩ := ha; obtain ⟨y, hy, rfl⟩ := hb; exact ⟨x + y, add_nonneg hx hy, (EReal.coe_add x y).symm⟩
theorem IsNonneg.mul {a b : EReal} (ha : IsNonneg a) (hb : IsNonneg b) : IsNonneg (a * b) := by
  obtain ⟨x, hx, rfl⟩ := ha; obtain ⟨y, hy, rfl⟩ := hb; exact ⟨x * y, mul_nonneg hx hy, (EReal.coe_mul x y).symm⟩
/-- A nonnegative real plus a positive real is positive. -/
theorem IsNonneg.add_pos {a b : EReal} (ha : IsNonneg a) (hb : IsPos b) : IsPos (a + b) := by
  obtain ⟨x, hx, rfl⟩ := ha; obtain ⟨y, hy, rfl⟩ := hb
  exact ⟨x + y, add_pos_of_nonneg_of_pos hx hy, (EReal.coe_add x y).symm⟩
theorem IsPos.mul {a b : EReal} (ha : IsPos a) (hb : IsPos b) : IsPos (a * b) := by
  obtain ⟨x, hx, rfl⟩ := ha; obtain ⟨y, hy, rfl⟩ := hb; exact ⟨x * y, mul_pos hx hy, (EReal.coe_mul x y).symm⟩
/-- The square of a real is a nonnegative real. -/
theorem IsReal.mul_self_nonneg {a : EReal} (ha : IsReal a) : IsNonneg (a * a) := by
  obtain ⟨x, rfl⟩ := ha; exact ⟨x * x, _root_.mul_self_nonneg x, (EReal.coe_mul x x).symm⟩
/-- The larger of a real and a nonnegative real is a nonnegative real (a rectifier's output). -/
theorem IsReal.max_nonneg {a b : EReal} (ha : IsReal a) (hb : IsNonneg b) : IsNonneg (Max.max a b) := by
  rcases le_total a b with h | h
  · rw [show Max.max a b = b from max_eq_right h]; exact hb
  · rw [show Max.max a b = a from max_eq_left h]
    obtain ⟨y, hy, rfl⟩ := hb
    exact isNonneg_iff.2 ⟨ha, le_trans (EReal.coe_nonneg.2 hy) h⟩

/-- A finite sum of reals is real. -/
theorem IsReal.sum {ι : Type} (s : Finset ι) (f : ι → EReal) (h : ∀ i ∈ s, IsReal (f i)) : IsReal (∑ i ∈ s, f i) :=
  Finset.sum_induction f IsReal (fun _ _ => IsReal.add) isReal_zero h
/-- A finite sum of nonnegative reals is a nonnegative real. -/
theorem IsNonneg.sum {ι : Type} (s : Finset ι) (f : ι → EReal) (h : ∀ i ∈ s, IsNonneg (f i)) : IsNonneg (∑ i ∈ s, f i) :=
  Finset.sum_induction f IsNonneg (fun _ _ => IsNonneg.add) isNonneg_zero h

/-- The quotient of a real by a nonzero real is real. -/
theorem IsReal.div {a b : EReal} (ha : IsReal a) (hb : IsReal b) (hb0 : b ≠ 0) : IsReal (Ideal.div a b) := by
  obtain ⟨y, rfl⟩ := hb
  rw [Ideal.div_coe (EReal.coe_ne_zero.1 hb0)]
  exact ha.mul (IsReal.coe _)
/-- The quotient of a nonnegative real by a positive real is a nonnegative real. -/
theorem IsNonneg.div_pos {a b : EReal} (ha : IsNonneg a) (hb : IsPos b) : IsNonneg (Ideal.div a b) := by
  obtain ⟨y, hy, rfl⟩ := hb
  rw [Ideal.div_coe hy.ne']
  exact ha.mul ⟨1 / y, by positivity, rfl⟩
/-- The quotient of a positive real by a positive real is a positive real. -/
theorem IsPos.div_pos {a b : EReal} (ha : IsPos a) (hb : IsPos b) : IsPos (Ideal.div a b) := by
  obtain ⟨y, hy, rfl⟩ := hb
  rw [Ideal.div_coe hy.ne']
  exact ha.mul ⟨1 / y, by positivity, rfl⟩

/-- The reciprocal square root of a positive real is a positive real. -/
theorem IsPos.rsqrt {a : EReal} (ha : IsPos a) : IsPos (Ideal.rsqrt a) := by
  obtain ⟨x, hx, rfl⟩ := ha
  rw [Ideal.rsqrt_coe, if_neg (not_lt.2 hx.le), if_neg hx.ne']
  exact ⟨(Real.sqrt x)⁻¹, inv_pos.2 (Real.sqrt_pos.2 hx), rfl⟩

/-! ### Vectors -/

variable {ι κ : Type}

/-- Every entry is a real number. -/
def AllReal (v : ι → EReal) : Prop := ∀ i, IsReal (v i)
/-- Every entry is a nonnegative real number. -/
def AllNonneg (v : ι → EReal) : Prop := ∀ i, IsNonneg (v i)
/-- Every entry is a positive real number. -/
def AllPos (v : ι → EReal) : Prop := ∀ i, IsPos (v i)

/-- The definition spelled out: each entry equals some real. -/
theorem allReal_def (v : ι → EReal) : AllReal v ↔ ∀ i, ∃ x : ℝ, v i = (x : EReal) := Iff.rfl
/-- The other spelling: no entry is an infinity. -/
theorem allReal_iff (v : ι → EReal) : AllReal v ↔ ∀ i, v i ≠ ⊤ ∧ v i ≠ ⊥ := forall_congr' fun _ => isReal_iff

theorem AllNonneg.allReal {v : ι → EReal} (h : AllNonneg v) : AllReal v := fun i => (h i).isReal
theorem AllPos.allNonneg {v : ι → EReal} (h : AllPos v) : AllNonneg v := fun i => (h i).isNonneg
theorem AllPos.allReal {v : ι → EReal} (h : AllPos v) : AllReal v := fun i => (h i).isReal

/-- A vector each of whose entries is an entry of an all-real vector is all real: every re-indexing. -/
theorem AllReal.comp {v : ι → EReal} (h : AllReal v) (f : κ → ι) : AllReal (fun j => v (f j)) := fun j => h (f j)
theorem AllNonneg.comp {v : ι → EReal} (h : AllNonneg v) (f : κ → ι) : AllNonneg (fun j => v (f j)) := fun j => h (f j)
theorem AllPos.comp {v : ι → EReal} (h : AllPos v) (f : κ → ι) : AllPos (fun j => v (f j)) := fun j => h (f j)

/-! ### Entrywise operations -/

section Ops
variable {s t : Shape} {φ : FTy}

theorem AllReal.addf {a b : FVec Ideal s φ} (ha : AllReal a) (hb : AllReal b) : AllReal (Idealize.ShloMosaic.addf a b) :=
  fun i => (ha i).add (hb i)
theorem AllReal.subf {a b : FVec Ideal s φ} (ha : AllReal a) (hb : AllReal b) : AllReal (Idealize.ShloMosaic.subf a b) :=
  fun i => (ha i).sub (hb i)
theorem AllReal.mulf {a b : FVec Ideal s φ} (ha : AllReal a) (hb : AllReal b) : AllReal (Idealize.ShloMosaic.mulf a b) :=
  fun i => (ha i).mul (hb i)
theorem AllReal.maximumf {a b : FVec Ideal s φ} (ha : AllReal a) (hb : AllReal b) :
    AllReal (Idealize.ShloMosaic.maximumf a b) :=
  fun i => (ha i).max (hb i)

/-- A sum of nonnegative reals, entrywise. -/
theorem AllNonneg.addf {a b : FVec Ideal s φ} (ha : AllNonneg a) (hb : AllNonneg b) :
    AllNonneg (Idealize.ShloMosaic.addf a b) :=
  fun i => (ha i).add (hb i)
/-- A nonnegative vector plus a positive one is positive: a variance plus its stabilising constant, a count plus one. -/
theorem AllNonneg.addf_pos {a b : FVec Ideal s φ} (ha : AllNonneg a) (hb : AllPos b) :
    AllPos (Idealize.ShloMosaic.addf a b) :=
  fun i => (ha i).add_pos (hb i)
/-- The entrywise square of a real vector is nonnegative. -/
theorem AllReal.mulf_self {a : FVec Ideal s φ} (ha : AllReal a) : AllNonneg (Idealize.ShloMosaic.mulf a a) :=
  fun i => (ha i).mul_self_nonneg
/-- A rectifier's output (the larger of a real and a nonnegative real, entrywise) is nonnegative. -/
theorem AllReal.maximumf_nonneg {a b : FVec Ideal s φ} (ha : AllReal a) (hb : AllNonneg b) :
    AllNonneg (Idealize.ShloMosaic.maximumf a b) :=
  fun i => (ha i).max_nonneg (hb i)

/-- The host's division by a vector of nonzero reals keeps a real vector real. -/
theorem AllReal.hostDivf {a b : FVec Ideal s φ} (ha : AllReal a) (hb : AllReal b) (hb0 : ∀ i, b i ≠ 0) :
    AllReal (Host.divf a b) :=
  fun i => (ha i).div (hb i) (hb0 i)
/-- … in particular by a vector of positive reals. -/
theorem AllReal.hostDivf_pos {a b : FVec Ideal s φ} (ha : AllReal a) (hb : AllPos b) : AllReal (Host.divf a b) :=
  ha.hostDivf hb.allReal fun i => (hb i).ne_zero
/-- A nonnegative vector divided by a positive one is nonnegative: a mean of squares. -/
theorem AllNonneg.hostDivf_pos {a b : FVec Ideal s φ} (ha : AllNonneg a) (hb : AllPos b) : AllNonneg (Host.divf a b) :=
  fun i => (ha i).div_pos (hb i)
/-- The same for the kernel's division. -/
theorem AllReal.divf {a b : FVec Ideal s φ} (ha : AllReal a) (hb : AllReal b) (hb0 : ∀ i, b i ≠ 0) :
    AllReal (Idealize.ShloMosaic.divf a b) :=
  fun i => (ha i).div (hb i) (hb0 i)

/-- The host's reciprocal square root of a vector of positive reals is a vector of positive reals. -/
theorem AllPos.hostRsqrt {a : FVec Ideal s φ} (ha : AllPos a) : AllPos (Host.rsqrt a) :=
  fun i => (ha i).rsqrt
/-- The same for the kernel's reciprocal square root. -/
theorem AllPos.rsqrt {a : FVec Ideal s φ} (ha : AllPos a) : AllPos (Idealize.ShloMosaic.rsqrt a) :=
  fun i => (ha i).rsqrt

/-- A selection between two real vectors is real, whatever the mask. -/
theorem AllReal.select {a b : FVec Ideal s φ} (c : IVec s 1) (ha : AllReal a) (hb : AllReal b) :
    AllReal (Idealize.ShloMosaic.select c a b) := fun i => by
  show IsReal (if c i = 1 then a i else b i)
  split
  · exact ha i
  · exact hb i

/-- A constant vector is real when its literal denotes a real. -/
theorem allReal_constant {b : BitVec φ.bits} (h : IsReal (Ideal.ofBits φ b)) : AllReal (constant (F := Ideal) s φ b) :=
  fun _ => h
theorem allNonneg_constant {b : BitVec φ.bits} (h : IsNonneg (Ideal.ofBits φ b)) : AllNonneg (constant (F := Ideal) s φ b) :=
  fun _ => h
theorem allPos_constant {b : BitVec φ.bits} (h : IsPos (Ideal.ofBits φ b)) : AllPos (constant (F := Ideal) s φ b) :=
  fun _ => h

end Ops

/-! ### Re-indexing operations: each entry of the result is an entry of an operand

Stated for any predicate on entries, then at the three used here. -/

section Layout
variable {s t : Shape} {α : Type} {w : Nat} (P : α → Prop)

theorem forall_broadcast (t : Shape) {x : α} (hx : P x) : ∀ j, P (broadcast t x j) := fun _ => hx
theorem forall_broadcastTo {x : s.Idx → α} (hx : ∀ k, P (x k)) (h : s.Broadcasts t) : ∀ j, P (broadcastTo t x h j) :=
  fun _ => hx _
theorem forall_broadcastInDim {x : s.Idx → α} (hx : ∀ k, P (x k)) (dims : Fin s.rank → Fin t.rank)
    (h : s.BroadcastsInDim t dims) : ∀ j, P (broadcastInDim t dims h x j) :=
  fun _ => hx _
theorem forall_shapeCast {x : s.Idx → α} (hx : ∀ k, P (x k)) (h : s.ShapeCasts t) : ∀ j, P (shapeCast t x h j) :=
  fun _ => hx _
theorem forall_extractStridedSlice {x : s.Idx → α} (hx : ∀ k, P (x k)) (off : Fin s.rank → Nat) (h : s.Slices off t) :
    ∀ j, P (extractStridedSlice t off x h j) :=
  fun _ => hx _
theorem forall_transpose {x : s.Idx → α} (hx : ∀ k, P (x k)) (perm : List (Fin s.rank)) (h : s.Transposes perm t) :
    ∀ j, P (transpose t perm x h j) :=
  fun _ => hx _
/-- A gather's entries are entries of the operand (the start indices are clamped into it). -/
theorem forall_gather {si : Shape} {x : s.Idx → α} (hx : ∀ k, P (x k)) (d : GatherDims s si t) (idx : IVec si w) :
    ∀ j, P (Host.gather d x idx j) :=
  fun _ => hx _
/-- A concatenation's entries are entries of its pieces. -/
theorem forall_concatenate (a : Fin t.rank) (xs : List ((s : Shape) × (s.Idx → α)))
    (hxs : ∀ p ∈ xs, ∀ k, P (p.2 k)) (h : Shape.Concatenates (xs.map (·.1)) t a) :
    ∀ j, P (concatenate t a xs h j) := by
  intro j
  unfold concatenate
  exact hxs _ (List.getElem_mem _) _

end Layout

section LayoutReal
variable {s t : Shape} {w : Nat}

theorem AllReal.broadcastTo {x : s.Idx → EReal} (hx : AllReal x) (h : s.Broadcasts t) :
    AllReal (Idealize.ShloMosaic.broadcastTo t x h) := forall_broadcastTo IsReal hx h
theorem AllReal.broadcastInDim {x : s.Idx → EReal} (hx : AllReal x) (dims : Fin s.rank → Fin t.rank)
    (h : s.BroadcastsInDim t dims) : AllReal (Idealize.ShloMosaic.broadcastInDim t dims h x) :=
  forall_broadcastInDim IsReal hx dims h
theorem AllReal.shapeCast {x : s.Idx → EReal} (hx : AllReal x) (h : s.ShapeCasts t) :
    AllReal (Idealize.ShloMosaic.shapeCast t x h) := forall_shapeCast IsReal hx h
theorem AllReal.extractStridedSlice {x : s.Idx → EReal} (hx : AllReal x) (off : Fin s.rank → Nat) (h : s.Slices off t) :
    AllReal (Idealize.ShloMosaic.extractStridedSlice t off x h) := forall_extractStridedSlice IsReal hx off h
theorem AllReal.gather {si : Shape} {x : s.Idx → EReal} (hx : AllReal x) (d : GatherDims s si t) (idx : IVec si w) :
    AllReal (Host.gather d x idx) := forall_gather IsReal hx d idx
theorem AllReal.concatenate (a : Fin t.rank) (xs : List ((s : Shape) × (s.Idx → EReal)))
    (hxs : ∀ p ∈ xs, AllReal p.2) (h : Shape.Concatenates (xs.map (·.1)) t a) :
    AllReal (Idealize.ShloMosaic.concatenate t a xs h) := forall_concatenate IsReal a xs hxs h
/-- The concatenation of two real vectors. -/
theorem AllReal.concatenate_pair {s₁ s₂ : Shape} (a : Fin t.rank) {x₁ : s₁.Idx → EReal} {x₂ : s₂.Idx → EReal}
    (h₁ : AllReal x₁) (h₂ : AllReal x₂) (h : Shape.Concatenates (([⟨s₁, x₁⟩, ⟨s₂, x₂⟩] : List ((s : Shape) × (s.Idx → EReal))).map (·.1)) t a) :
    AllReal (Idealize.ShloMosaic.concatenate t a [⟨s₁, x₁⟩, ⟨s₂, x₂⟩] h) :=
  AllReal.concatenate a _ (fun p hp => by
    rcases List.mem_cons.1 hp with rfl | hp
    · exact h₁
    · rcases List.mem_cons.1 hp with rfl | hp
      · exact h₂
      · exact absurd hp (List.not_mem_nil)) h

theorem AllNonneg.broadcastInDim {x : s.Idx → EReal} (hx : AllNonneg x) (dims : Fin s.rank → Fin t.rank)
    (h : s.BroadcastsInDim t dims) : AllNonneg (Idealize.ShloMosaic.broadcastInDim t dims h x) :=
  forall_broadcastInDim IsNonneg hx dims h
theorem AllPos.broadcastInDim {x : s.Idx → EReal} (hx : AllPos x) (dims : Fin s.rank → Fin t.rank)
    (h : s.BroadcastsInDim t dims) : AllPos (Idealize.ShloMosaic.broadcastInDim t dims h x) :=
  forall_broadcastInDim IsPos hx dims h
theorem AllNonneg.gather {si : Shape} {x : s.Idx → EReal} (hx : AllNonneg x) (d : GatherDims s si t) (idx : IVec si w) :
    AllNonneg (Host.gather d x idx) := forall_gather IsNonneg hx d idx
theorem AllPos.gather {si : Shape} {x : s.Idx → EReal} (hx : AllPos x) (d : GatherDims s si t) (idx : IVec si w) :
    AllPos (Host.gather d x idx) := forall_gather IsPos hx d idx

end LayoutReal

/-! ### Finite sums: the host's float reduction, scatter-add and dot product -/

section Sums
variable {s t u si su : Shape} {φ φ₁ φ₂ : FTy} {w : Nat}

/-- The host's float sum of a real vector from a real initial value is real. -/
theorem AllReal.hostReduceAdd {axes : List (Fin s.rank)} {x : FVec Ideal s φ} {init : u.Idx → Ideal φ}
    (hx : AllReal x) (hi : AllReal init) (h : s.ReducesTo axes t) (hu : 0 < u.numel) :
    AllReal (Host.reduceAdd x init h hu) := fun j => by
  show IsReal (Ideal.hostReduceAdd h x (init (Shape.Idx.first hu)) j)
  unfold Ideal.hostReduceAdd
  exact (hi _).add (IsReal.sum _ _ fun i _ => hx i)
/-- The host's float sum of a nonnegative vector from a nonnegative initial value is nonnegative. -/
theorem AllNonneg.hostReduceAdd {axes : List (Fin s.rank)} {x : FVec Ideal s φ} {init : u.Idx → Ideal φ}
    (hx : AllNonneg x) (hi : AllNonneg init) (h : s.ReducesTo axes t) (hu : 0 < u.numel) :
    AllNonneg (Host.reduceAdd x init h hu) := fun j => by
  show IsNonneg (Ideal.hostReduceAdd h x (init (Shape.Idx.first hu)) j)
  unfold Ideal.hostReduceAdd
  exact (hi _).add (IsNonneg.sum _ _ fun i _ => hx i)

/-- The host's accumulating scatter of real updates into a real operand is real: each entry is the operand's
    plus a finite sum of updates. -/
theorem AllReal.hostScatterAdd (d : ScatterDims s si su) {x : FVec Ideal s φ} {upd : FVec Ideal su φ} (idx : IVec si w)
    (hx : AllReal x) (hu : AllReal upd) : AllReal (Host.scatterAdd d x idx upd) := fun i => by
  show IsReal (Ideal.hostScatterAdd d x idx upd i)
  unfold Ideal.hostScatterAdd
  exact (hx i).add (IsReal.sum _ _ fun j _ => hu j)
/-- The host's accumulating scatter of nonnegative updates into a nonnegative operand (zeros, say) is nonnegative. -/
theorem AllNonneg.hostScatterAdd (d : ScatterDims s si su) {x : FVec Ideal s φ} {upd : FVec Ideal su φ} (idx : IVec si w)
    (hx : AllNonneg x) (hu : AllNonneg upd) : AllNonneg (Host.scatterAdd d x idx upd) := fun i => by
  show IsNonneg (Ideal.hostScatterAdd d x idx upd i)
  unfold Ideal.hostScatterAdd
  exact (hx i).add (IsNonneg.sum _ _ fun j _ => hu j)

/-- The host's dot product of two real operands is real: a finite sum of products. -/
theorem AllReal.hostDotGeneral {sl sr so : Shape} (d : DotDims sl sr so) (prec : Option ContractPrecision)
    {lhs : FVec Ideal sl φ₁} {rhs : FVec Ideal sr φ₂} (hl : AllReal lhs) (hr : AllReal rhs) :
    AllReal (Host.dotGeneral d prec lhs rhs) := fun j => by
  show IsReal (FloatOps.dotGeneral d prec .single lhs rhs j)
  rw [Ideal.dotGeneral_apply]
  exact IsReal.sum _ _ fun k _ => (hl _).mul (hr _)
/-- A matrix product into a real accumulator is real. -/
theorem AllReal.matmul {sl sr so : Shape} (d : DotDims sl sr so) (prec : Option ContractPrecision)
    {lhs : FVec Ideal sl φ₁} {rhs : FVec Ideal sr φ₂} {acc : FVec Ideal so .f32} (hl : AllReal lhs) (hr : AllReal rhs)
    (ha : AllReal acc) : AllReal (Idealize.ShloMosaic.matmul d prec lhs rhs acc) := fun j => by
  show IsReal (FloatOps.matmul d prec lhs rhs acc j)
  rw [Ideal.matmul_apply]
  exact (ha j).add (IsReal.sum _ _ fun k _ => (hl _).mul (hr _))

end Sums

/-! ### Literals -/

/-- The word of `0.0` is zero, `1.0` one. -/
theorem ofBits_one_f32 : Ideal.ofBits .f32 0x3F800000#32 = 1 := by
  simp [Ideal.ofBits, Ideal.ieee]
  norm_cast
  norm_num
theorem isReal_ofBits_zero_f32 : IsReal (Ideal.ofBits .f32 0x00000000#32) := by
  rw [Ideal.ofBits_zero_f32]; exact isReal_zero
theorem isNonneg_ofBits_zero_f32 : IsNonneg (Ideal.ofBits .f32 0x00000000#32) := by
  rw [Ideal.ofBits_zero_f32]; exact isNonneg_zero
theorem isPos_ofBits_one_f32 : IsPos (Ideal.ofBits .f32 0x3F800000#32) := by
  rw [ofBits_one_f32]; exact isPos_one

/-- The word `0x461C4000` (`1.0e4`) denotes a positive real. -/
theorem isPos_ofBits_1e4_f32 : IsPos (Ideal.ofBits .f32 0x461C4000#32) := by
  unfold IsPos
  simp [Ideal.ofBits, Ideal.ieee]
  exact ⟨10240000 * (2 ^ 10)⁻¹, by positivity, (EReal.coe_mul _ _).symm⟩
/-- The word `0x3727C5AC` (`9.99999974e-6`) denotes a positive real. -/
theorem isPos_ofBits_eps_f32 : IsPos (Ideal.ofBits .f32 0x3727C5AC#32) := by
  unfold IsPos
  simp [Ideal.ofBits, Ideal.ieee]
  exact ⟨10995116 * (2 ^ 40)⁻¹, by positivity, (EReal.coe_mul _ _).symm⟩
/-- The word `0x4A240E18` (`2687878.0`) denotes a positive real. -/
theorem isPos_ofBits_2687878_f32 : IsPos (Ideal.ofBits .f32 0x4A240E18#32) := by
  unfold IsPos
  simp [Ideal.ofBits, Ideal.ieee]
  exact ⟨10751512 * (2 ^ 2)⁻¹, by positivity, (EReal.coe_mul _ _).symm⟩

/-! ### A finiteness precondition read back -/

/-- The word of positive infinity denotes the top element. -/
theorem ofBits_inf_f32 : Ideal.ofBits .f32 0x7F800000#32 = ⊤ := by simp [Ideal.ofBits, Ideal.ieee]

/-- An extended real whose absolute value compares below positive infinity is a real number. -/
theorem isReal_of_abs_lt_inf {a : EReal}
    (h : Ideal.cmp .olt (max a (-a)) (Ideal.ofBits .f32 0x7F800000#32) = 1#1) : IsReal a := by
  rw [ofBits_inf_f32] at h
  have hlt : max a (-a) < ⊤ := by
    by_contra hn
    simp [Ideal.cmp, hn] at h
  rw [max_lt_iff] at hlt
  refine isReal_iff.2 ⟨ne_of_lt hlt.1, ?_⟩
  rintro rfl
  simp at hlt

/-- A shape of rank zero has one index. -/
instance subsingleton_idx_rank_zero : Subsingleton (⟨0, ![]⟩ : Shape).Idx := ⟨fun a b => funext fun d => d.elim0⟩

/-- One conjunct of a finiteness precondition read back: if "every entry's absolute value is below positive
    infinity", reduced by conjunction from true, came out true, the vector is all real. -/
theorem allReal_of_all_abs_lt_inf {s : Shape} {axes : List (Fin s.rank)} (x : FVec Ideal s .f32)
    (hb : (⟨0, ![]⟩ : Shape).BroadcastsInDim s ![]) (hr : s.ReducesTo axes ⟨0, ![]⟩) (hu : 0 < (⟨0, ![]⟩ : Shape).numel)
    (j : (⟨0, ![]⟩ : Shape).Idx)
    (e : Host.reduce IntOp.andi
          (cmpf .olt (Host.absf x) (broadcastInDim s ![] hb (constant (F := Ideal) ⟨0, ![]⟩ .f32 0x7F800000#32)))
          (constantI ⟨0, ![]⟩ 1 1#1) hr hu j = 1#1) : AllReal x := fun i =>
  isReal_of_abs_lt_inf (Host.reduce_andi_all _ _ hr hu j e i)

end Idealize.ShloMosaic.FiniteOps

end
-- ==== Proof.Algebra.lean ====
/-
  The law that joins the two results: for real entries, `Σ_t ((Σ_e q_e · k_te) · c) · v_td = (Σ_e q_e · Σ_t k_te · v_td) · c`,
  the sum over the 4096 rows taken as four tiles of 1024 in order.
-/
import proofs.«103619_j22514218565864_1_alg».proof.Proof.Spec
import proofs.«103619_j22514218565864_1_alg».proof.Proof.LibFiniteOps
import Mathlib.Algebra.BigOperators.Fin
import Mathlib.Algebra.BigOperators.Ring.Finset
import Mathlib.Logic.Equiv.Fin.Basic
import Mathlib.Tactic.Ring

noncomputable section

namespace Cert.Attn

open Idealize.ShloMosaic Idealize.ShloMosaic.ValueIdx Idealize.ShloMosaic.FiniteOps

/-- The coercion of the reals into the extended reals commutes with finite sums. -/
private theorem coe_sum {ι : Type} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

/-- A sum over the 4096 rows is the sum of the four tiles' sums, taken in tile order. -/
private theorem sum_tiles (f : Fin 4096 → ℝ) :
    ((∑ t : Fin 1024, f (trow 0 t) + ∑ t : Fin 1024, f (trow 1 t)) + ∑ t : Fin 1024, f (trow 2 t))
      + ∑ t : Fin 1024, f (trow 3 t) = ∑ t : Fin 4096, f t := by
  have h : ∑ p : Fin 4 × Fin 1024, f (trow p.1.val p.2) = ∑ t : Fin 4096, f t := by
    refine Fintype.sum_equiv (finProdFinEquiv (m := 4) (n := 1024)) _ _ ?_
    rintro ⟨j, t⟩
    congr 1
    apply Fin.ext
    have := j.isLt
    simp only [trow, finProdFinEquiv, Equiv.coe_fn_mk]
    omega
  rw [← h, Fintype.sum_prod_type, Fin.sum_univ_four]
  rfl

/-- The law over the reals: contracting the rows first, tile by tile, and scaling last gives the scaled scores times the values. -/
private theorem law_real (q : Fin 768 → ℝ) (k : Fin 4096 → Fin 768 → ℝ) (v : Fin 4096 → ℝ) (c : ℝ) :
    (∑ e : Fin 768, q e *
        ((((∑ t : Fin 1024, k (trow 0 t) e * v (trow 0 t)) + ∑ t : Fin 1024, k (trow 1 t) e * v (trow 1 t))
          + ∑ t : Fin 1024, k (trow 2 t) e * v (trow 2 t)) + ∑ t : Fin 1024, k (trow 3 t) e * v (trow 3 t))) * c
      = ∑ t : Fin 4096, ((∑ e : Fin 768, q e * k t e) * c) * v t := by
  have h : ∀ e : Fin 768,
      (((∑ t : Fin 1024, k (trow 0 t) e * v (trow 0 t)) + ∑ t : Fin 1024, k (trow 1 t) e * v (trow 1 t))
          + ∑ t : Fin 1024, k (trow 2 t) e * v (trow 2 t)) + ∑ t : Fin 1024, k (trow 3 t) e * v (trow 3 t)
        = ∑ t : Fin 4096, k t e * v t := fun e => sum_tiles fun t => k t e * v t
  simp only [h, Finset.mul_sum, Finset.sum_mul]
  rw [Finset.sum_comm]
  refine Finset.sum_congr rfl fun t _ => Finset.sum_congr rfl fun e _ => ?_
  ring

/-- The scale's word denotes a real number. -/
private theorem isReal_scale : IsReal scale := by
  unfold IsReal scale
  simp [Ideal.ofBits, Ideal.ieee]
  exact ⟨9686330 * (2 ^ 28)⁻¹, (EReal.coe_mul _ _).symm⟩

/-- A linear layer over the reals. -/
private def linR (x : SX.Idx → ℝ) (W : SW.Idx → ℝ) (β : SB.Idx → ℝ) (b : Fin 4) (s : Fin 4096) (e : Fin 768) : ℝ :=
  (∑ d : Fin 768, x (ix3 b s d) * W (ix2 e d)) + β (ix1 e)

/-- A linear layer of real arrays is the real linear layer of their real values. -/
private theorem lin_coe {x : FVec Ideal SX .f32} {W : FVec Ideal SW .f32} {β : FVec Ideal SB .f32}
    {x' : SX.Idx → ℝ} {W' : SW.Idx → ℝ} {β' : SB.Idx → ℝ}
    (hx : ∀ i, x i = ((x' i : ℝ) : EReal)) (hW : ∀ i, W i = ((W' i : ℝ) : EReal)) (hβ : ∀ i, β i = ((β' i : ℝ) : EReal))
    (b : Fin 4) (s : Fin 4096) (e : Fin 768) :
    lin x W β b s e = ((linR x' W' β' b s e : ℝ) : EReal) := by
  unfold lin linR
  rw [EReal.coe_add, coe_sum, hβ]
  congr 1
  refine Finset.sum_congr rfl fun d _ => ?_
  rw [hx, hW, EReal.coe_mul]

theorem kernelOut_eq_refOut (x : FVec Ideal SX .f32) (Wq : FVec Ideal SW .f32) (bq : FVec Ideal SB .f32) (Wk : FVec Ideal SW .f32) (bk : FVec Ideal SB .f32)
    (Wv : FVec Ideal SW .f32) (bv : FVec Ideal SB .f32)
    (hx : AllReal x) (hWq : AllReal Wq) (hbq : AllReal bq) (hWk : AllReal Wk) (hbk : AllReal bk) (hWv : AllReal Wv) (hbv : AllReal bv) :
    kernelOut x Wq bq Wk bk Wv bv = refOut x Wq bq Wk bk Wv bv := by
  funext i
  obtain ⟨b, s, d, rfl⟩ : ∃ (b : Fin 4) (s : Fin 4096) (d : Fin 768), i = ix3 b s d := ⟨i 0, i 1, i 2, eq_ix3 i⟩
  rw [kernelOut_apply, refOut_apply]
  choose x' hx' using hx
  choose Wq' hWq' using hWq
  choose bq' hbq' using hbq
  choose Wk' hWk' using hWk
  choose bk' hbk' using hbk
  choose Wv' hWv' using hWv
  choose bv' hbv' using hbv
  obtain ⟨c, hc⟩ := isReal_scale
  have hacc : ∀ e : Fin 768, kvAcc x Wk bk Wv bv b 3 e d
      = ((kvTile x Wk bk Wv bv b 0 e d + kvTile x Wk bk Wv bv b 1 e d) + kvTile x Wk bk Wv bv b 2 e d)
        + kvTile x Wk bk Wv bv b 3 e d := fun _ => rfl
  simp only [hacc, kvTile, hc, lin_coe hx' hWq' hbq', lin_coe hx' hWk' hbk', lin_coe hx' hWv' hbv',
    ← EReal.coe_mul, ← EReal.coe_add, ← coe_sum]
  exact congrArg _ (law_real (fun e => linR x' Wq' bq' b s e) (fun t e => linR x' Wk' bk' b t e)
    (fun t => linR x' Wv' bv' b t d) c)

end Cert.Attn

end
-- ==== Proof.Finite.lean ====
/-
  The precondition read back: when "every entry's absolute value is below +∞" holds of all seven arguments, each
  argument's entries are real numbers.
-/
import proofs.«103619_j22514218565864_1_alg».proof.Pre_finite_inputs
import proofs.«103619_j22514218565864_1_alg».proof.Proof.Gen.Pre_finite_inputs
import proofs.«103619_j22514218565864_1_alg».proof.Proof.Spec
import proofs.«103619_j22514218565864_1_alg».proof.Proof.LibFiniteOps

noncomputable section

namespace Cert.Attn

open Idealize.ShloMosaic Idealize.ShloMosaic.ValueIdx Idealize.ShloMosaic.FiniteOps

/-- An entrywise conjunction of two one-bit vectors is true at an index exactly when both are true there. -/
private theorem andi_apply_eq_one {s : Shape} (x y : IVec s 1) (j : s.Idx) :
    andi x y j = 1#1 ↔ x j = 1#1 ∧ y j = 1#1 := IntOp.andi_eq_one

theorem allReal_args (a0 : FVec Ideal SX .f32) (a1 : FVec Ideal SW .f32) (a2 : FVec Ideal SB .f32) (a3 : FVec Ideal SW .f32) (a4 : FVec Ideal SB .f32)
    (a5 : FVec Ideal SW .f32) (a6 : FVec Ideal SB .f32)
    (h : Cert.Pre_finite_inputs.fn (F := Ideal) a0 a1 a2 a3 a4 a5 a6 = fun _ => 1#1) :
    AllReal a0 ∧ AllReal a1 ∧ AllReal a2 ∧ AllReal a3 ∧ AllReal a4 ∧ AllReal a5 ∧ AllReal a6 := by
  -- The result at its single index is the conjunction of the seven per-argument bits.
  have h0 := congrFun h ValueIdx.ix0
  simp only [Cert.Pre_finite_inputs.fn, Cert.Pre_finite_inputs.fn_part1, andi_apply_eq_one] at h0
  obtain ⟨⟨⟨⟨⟨⟨e0, e1⟩, e2⟩, e3⟩, e4⟩, e5⟩, e6⟩ := h0
  exact ⟨allReal_of_all_abs_lt_inf a0 _ _ _ _ e0, allReal_of_all_abs_lt_inf a1 _ _ _ _ e1,
    allReal_of_all_abs_lt_inf a2 _ _ _ _ e2, allReal_of_all_abs_lt_inf a3 _ _ _ _ e3,
    allReal_of_all_abs_lt_inf a4 _ _ _ _ e4, allReal_of_all_abs_lt_inf a5 _ _ _ _ e5,
    allReal_of_all_abs_lt_inf a6 _ _ _ _ e6⟩

end Cert.Attn

end
-- ==== Proof.lean ====
/-
  The certificate of a softmax-free attention layer: three linear layers q, k, v of the activations x (768 features),
  scores `(q · kᵀ) · c` with c the single-precision word of 1/√768, and the result `scores · v`.

  The kernel never forms the 4096 × 4096 scores. It uses that without a softmax the product re-associates:
  `((q · kᵀ) · c) · v = (q · (kᵀ · v)) · c`. A first region accumulates, per batch, the 768 × 768 matrix `kᵀ · v` over
  four tiles of 1024 rows; a second region multiplies q with it and scales. Over the extended reals the
  re-association needs the entries to be real numbers (distributivity fails at infinities), which is what the
  precondition gives: every argument entry is finite, and sums and products of reals are real.

  The three frames: the kernel's two are the generated frames; the reference's is its run with the result dropped.
  The idealized kernel is the kernel's own text read at the ideal values (no rewrite), so `preserves` asks nothing.
  The value claim: the kernel's run ends at `kernelOut` of the arguments (the two regions' arrays read back block by
  block), the reference's at `refOut`, and the two are one function on real entries.
-/
import proofs.«103619_j22514218565864_1_alg».proof.Defs
import proofs.«103619_j22514218565864_1_alg».proof.Proof.Gen.Kernel
import proofs.«103619_j22514218565864_1_alg».proof.Proof.Gen.Kernel.Frame
import proofs.«103619_j22514218565864_1_alg».proof.Proof.Gen.KernelIdeal
import proofs.«103619_j22514218565864_1_alg».proof.Proof.Gen.KernelIdeal.Frame
import proofs.«103619_j22514218565864_1_alg».proof.Proof.Gen.ReferenceIdeal
import proofs.«103619_j22514218565864_1_alg».proof.Proof.Gen.Pre_finite_inputs
import proofs.«103619_j22514218565864_1_alg».proof.Proof.KernelRun
import proofs.«103619_j22514218565864_1_alg».proof.Proof.RefRun
import proofs.«103619_j22514218565864_1_alg».proof.Proof.Algebra
import proofs.«103619_j22514218565864_1_alg».proof.Proof.Finite

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.Attn.RefRun.run m ρ)

/-- From memories that agree on the arguments both programs end at the same result: the kernel's `(q · (kᵀ · v)) · c`
    is the reference's `((q · kᵀ) · c) · v` because the arguments' entries, finite by the precondition, are real. -/
theorem algebraic : Cert.algebraic_KernelIdeal_ReferenceIdeal := by
  intro m ρ m' ρ' hpre hagree
  refine ⟨fun c => Cert.Attn.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.Attn.KernelRun.run m ρ, ?_⟩
  refine (θ_run Cert.ReferenceIdeal.defs _ _).mono (fun _ h c => ⟨(h c).1.trans ?_, (h c).2⟩) (Cert.Attn.RefRun.run m' ρ')
  obtain ⟨h0, h1, h2, h3, h4, h5, h6⟩ := hagree c
  rw [h0, h1, h2, h3, h4, h5, h6]
  obtain ⟨r0, r1, r2, r3, r4, r5, r6⟩ := Cert.Attn.allReal_args _ _ _ _ _ _ _ (hpre c)
  exact (Cert.Attn.kernelOut_eq_refOut _ _ _ _ _ _ _ r0 r1 r2 r3 r4 r5 r6).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
